-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)) (v2 : (c : Dev Cert.KernelIdeal.nD) → Buf (Elt Ideal) ((c.tc : Thread Cert.KernelIdeal.nD Cert.KernelIdeal.τ).loc Cert.KernelIdeal.main_v20)) (v3 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_v20) = v2 c
          ∧ r.2.mem ((c.tc : Thread Cert.KernelIdeal.nD Cert.KernelIdeal.τ).loc Cert.KernelIdeal.main_v31) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v46) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048x1 : Shape := ⟨2, ![2048, 1]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048x1 : S_.BroadcastsInDim S2048x1 (![] : Fin 0 → Fin S2048x1.rank)
  reducesTo_S2048x1_S_d0_1 : S2048x1.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048x1 .f32) (main_arg5 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x1 .f32 := Host.absf main_arg4
  let main_cst_6 : FVec F S_ .f32 := constant S_ .f32 0x7F800000#32
  let main_v20 : FVec F S2048x1 .f32 := broadcastInDim S2048x1 ![] bcast_S_S2048x1 main_cst_6
  let main_v21 : IVec S2048x1 1 := cmpf .olt main_v19 main_v20
  let main_c_7 : IVec S_ 1 := constantI S_ 1 1#1
  let main_v22 : IVec S_ 1 := (fun x v => Host.reduce IntOp.andi x v reducesTo_S2048x1_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S4096x2048 .f32) (main_arg1 : FVec F S4096x2048 .f32) (main_arg2 : FVec F S2048x2048 .f32) (main_arg3 : FVec F S2048x2048 .f32) (main_arg4 : FVec F S2048x1 .f32) (main_arg5 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_v13 main_v16
-- ==== Kernel.lean ====
abbrev S4096x2048 : Shape := ⟨2, ![4096, 2048]⟩
abbrev S2048x2048 : Shape := ⟨2, ![2048, 2048]⟩
abbrev S2048x1 : Shape := ⟨2, ![2048, 1]⟩
abbrev S2048 : Shape := ⟨1, ![2048]⟩
abbrev S_ : Shape := ⟨0, ![]⟩
abbrev S1x2048 : Shape := ⟨2, ![1, 2048]⟩
abbrev S1024x512 : Shape := ⟨2, ![1024, 512]⟩
abbrev S512x512 : Shape := ⟨2, ![512, 512]⟩
abbrev S1x512 : Shape := ⟨2, ![1, 512]⟩

abbrev nBuf : Space → Nat
  | .hbm => 60
  | .vmem => 20
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x2048, .f32⟩
  | .hbm, ⟨3, _⟩ => ⟨S2048x2048, .f32⟩
  | .hbm, ⟨4, _⟩ => ⟨S2048x1, .f32⟩
  | .hbm, ⟨5, _⟩ => ⟨S2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048, .f32⟩
  | .hbm, ⟨12, _⟩ => ⟨S2048, .f32⟩
  | .hbm, ⟨13, _⟩ => ⟨S_, .f32⟩
  | .hbm, ⟨14, _⟩ => ⟨S2048, .f32⟩
  | .hbm, ⟨15, _⟩ => ⟨S2048, .f32⟩
  | .hbm, ⟨16, _⟩ => ⟨S2048x2048, .f32⟩
  | .hbm, ⟨17, _⟩ => ⟨S_, .f32⟩
  | .hbm, ⟨18, _⟩ => ⟨S2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S2048x1, .f32⟩
  | .hbm, ⟨35, _⟩ => ⟨S_, .f32⟩
  | .hbm, ⟨36, _⟩ => ⟨S2048, .f32⟩
  | .hbm, ⟨37, _⟩ => ⟨S_, .f32⟩
  | .hbm, ⟨38, _⟩ => ⟨S2048, .f32⟩
  | .hbm, ⟨39, _⟩ => ⟨S2048, .f32⟩
  | .hbm, ⟨40, _⟩ => ⟨S2048, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048x2048, .bf16⟩
  | .hbm, ⟨54, _⟩ => ⟨S2048x2048, .bf16⟩
  | .hbm, ⟨55, _⟩ => ⟨S2048x2048, .bf16⟩
  | .hbm, ⟨56, _⟩ => ⟨S1x2048, .f32⟩
  | .hbm, ⟨57, _⟩ => ⟨S1x2048, .f32⟩
  | .hbm, ⟨58, _⟩ => ⟨S4096x2048, .f32⟩
  | .hbm, ⟨59, _⟩ => ⟨S4096x2048, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_9 : Ref sig .tc := ⟨.hbm, 46, rfl⟩
abbrev main_v30 : Ref sig .tc := ⟨.hbm, 47, rfl⟩
abbrev main_cst_10 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40_0 : Ref sig .tc := ⟨.hbm, 58, rfl⟩
abbrev main_v40_1 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v29 : BitVec 1 := Scalar.cmpi .eq arg2 c3_i32
  let v30 : BitVec 32 := Scalar.extui v29
  let c0_i32_20 : BitVec 32 := 0#32
  let v31 : BitVec 1 := Scalar.cmpi .ne v30 c0_i32_20
  v31

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

class Facts₀ : Prop where
  bcast_S_S2048x2048 : S_.BroadcastsInDim S2048x2048 (![] : Fin 0 → Fin S2048x2048.rank)
  bcast_S_S2048 : S_.BroadcastsInDim S2048 (![] : Fin 0 → Fin S2048.rank)
  reducesTo_S2048x2048_S2048_d1 : S2048x2048.ReducesTo [1] S2048
  h_S_ : 0 < S_.numel
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  reducesTo_S2048x2048_S_d0_1 : S2048x2048.ReducesTo [0, 1] S_
  reducesTo_S2048x1_S2048_d1 : S2048x1.ReducesTo [1] S2048
  reducesTo_S2048_S_d0 : S2048.ReducesTo [0] S_
  transposes_S2048x2048_S2048x2048_1_0 : S2048x2048.Transposes [1, 0] S2048x2048
  bitsLt_bf16_f32 : FTy.bits .bf16 < FTy.bits .f32
  shapeCasts_S2048x1_S1x2048 : S2048x1.ShapeCasts S1x2048
  shapeCasts_S2048_S1x2048 : S2048.ShapeCasts S1x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x2048.size a
  hwx0_0 : ∀ i : grid0.Coords, EltTy.bits .f32 = 32 ∨ (Rect.block (s := S4096x2048) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x2048.size a
  hwx0_1 : ∀ i : grid0.Coords, EltTy.bits .f32 = 32 ∨ (Rect.block (s := S4096x2048) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S2048x2048.size a
  hwx0_2 : ∀ i : grid0.Coords, EltTy.bits .bf16 = 32 ∨ (Rect.block (s := S2048x2048) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S2048x2048.size a
  hwx0_3 : ∀ i : grid0.Coords, EltTy.bits .bf16 = 32 ∨ (Rect.block (s := S2048x2048) S512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S2048x2048.size a
  hwx0_4 : ∀ i : grid0.Coords, EltTy.bits .bf16 = 32 ∨ (Rect.block (s := S2048x2048) S512x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x2048.size a
  hwx0_5 : ∀ i : grid0.Coords, EltTy.bits .f32 = 32 ∨ (Rect.block (s := S1x2048) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x2048.size a
  hwx0_6 : ∀ i : grid0.Coords, EltTy.bits .f32 = 32 ∨ (Rect.block (s := S1x2048) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S4096x2048.size a
  hwx0_7 : ∀ i : grid0.Coords, EltTy.bits .f32 = 32 ∨ (Rect.block (s := S4096x2048) S1024x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S4096x2048.size a
  hwx0_8 : ∀ i : grid0.Coords, EltTy.bits .f32 = 32 ∨ (Rect.block (s := S4096x2048) S1024x512.size (cc0_transform_8 i) (hinb0_8 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v36) S512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v38) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v39) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v40_0) S1024x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v40_1) S1024x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x2048 : Shape := ⟨2, ![2048, 2048]⟩
abbrev S2048x1 : Shape := ⟨2, ![2048, 1]⟩
abbrev S2048 : Shape := ⟨1, ![2048]⟩
abbrev S1x2048 : Shape := ⟨2, ![1, 2048]⟩
abbrev S_ : Shape := ⟨0, ![]⟩

abbrev nBuf : Space → Nat
  | .hbm => 65
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x2048, .f32⟩
  | .hbm, ⟨3, _⟩ => ⟨S2048x2048, .f32⟩
  | .hbm, ⟨4, _⟩ => ⟨S2048x1, .f32⟩
  | .hbm, ⟨5, _⟩ => ⟨S2048, .f32⟩
  | .hbm, ⟨6, _⟩ => ⟨S4096x2048, .f32⟩
  | .hbm, ⟨7, _⟩ => ⟨S2048, .f32⟩
  | .hbm, ⟨8, _⟩ => ⟨S1x2048, .f32⟩
  | .hbm, ⟨9, _⟩ => ⟨S4096x2048, .f32⟩
  | .hbm, ⟨10, _⟩ => ⟨S4096x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048, .f32⟩
  | .hbm, ⟨17, _⟩ => ⟨S2048, .f32⟩
  | .hbm, ⟨18, _⟩ => ⟨S_, .f32⟩
  | .hbm, ⟨19, _⟩ => ⟨S2048, .f32⟩
  | .hbm, ⟨20, _⟩ => ⟨S2048, .f32⟩
  | .hbm, ⟨21, _⟩ => ⟨S4096x2048, .f32⟩
  | .hbm, ⟨22, _⟩ => ⟨S2048x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S_, .f32⟩
  | .hbm, ⟨40, _⟩ => ⟨S2048x2048, .f32⟩
  | .hbm, ⟨41, _⟩ => ⟨S2048x2048, .f32⟩
  | .hbm, ⟨42, _⟩ => ⟨S1x2048, .f32⟩
  | .hbm, ⟨43, _⟩ => ⟨S2048x2048, .f32⟩
  | .hbm, ⟨44, _⟩ => ⟨S2048x2048, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S2048x1, .f32⟩
  | .hbm, ⟨50, _⟩ => ⟨S_, .f32⟩
  | .hbm, ⟨51, _⟩ => ⟨S2048, .f32⟩
  | .hbm, ⟨52, _⟩ => ⟨S_, .f32⟩
  | .hbm, ⟨53, _⟩ => ⟨S2048, .f32⟩
  | .hbm, ⟨54, _⟩ => ⟨S2048, .f32⟩
  | .hbm, ⟨55, _⟩ => ⟨S2048, .f32⟩
  | .hbm, ⟨56, _⟩ => ⟨S2048, .f32⟩
  | .hbm, ⟨57, _⟩ => ⟨S_, .f32⟩
  | .hbm, ⟨58, _⟩ => ⟨S2048, .f32⟩
  | .hbm, ⟨59, _⟩ => ⟨S2048, .f32⟩
  | .hbm, ⟨60, _⟩ => ⟨S2048, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩

abbrev nD : Nat := 1
abbrev τ : Topo := Topo.v7x

variable {F : FTy → Type} [FloatOps F]

class Facts₀ : Prop where
  shapeCasts_S2048x1_S2048 : S2048x1.ShapeCasts S2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S2048x2048 : S_.BroadcastsInDim S2048x2048 (![] : Fin 0 → Fin S2048x2048.rank)
  bcast_S_S2048 : S_.BroadcastsInDim S2048 (![] : Fin 0 → Fin S2048.rank)
  reducesTo_S2048x2048_S2048_d1 : S2048x2048.ReducesTo [1] S2048
  h_S_ : 0 < S_.numel
  bcast_S1x2048_S2048x2048_0_1 : S1x2048.BroadcastsInDim S2048x2048 (![0, 1] : Fin 2 → Fin S2048x2048.rank)
  reducesTo_S2048x2048_S_d0_1 : S2048x2048.ReducesTo [0, 1] S_
  reducesTo_S2048x1_S2048_d1 : S2048x1.ReducesTo [1] S2048
  reducesTo_S2048_S_d0 : S2048.ReducesTo [0] S_
  dot_S4096x2048_S2048x2048_S4096x2048_1_0_0_1_n_n_wf : DotDims.WF S4096x2048 S2048x2048 S4096x2048 [1] [0] [0] [1] [] []
  dot_S4096x2048_S2048x2048_S4096x2048_1_1_0_0_n_n_wf : DotDims.WF S4096x2048 S2048x2048 S4096x2048 [1] [1] [0] [0] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x2048_S2048x2048_S4096x2048_1_1_0_0_n_n : DotDims S4096x2048 S2048x2048 S4096x2048 where
  lhsContracting := [1]
  rhsContracting := [1]
  lhsNonContracting := [0]
  rhsNonContracting := [0]
  lhsBatch := []
  rhsBatch := []
  wf := dot_S4096x2048_S2048x2048_S4096x2048_1_1_0_0_n_n_wf

class Facts : Prop extends Facts₀ where

variable [Facts]
-- ==== Proof.Softplus.lean ====
/-
  Scalar facts on the extended reals used by the variance output.

  The softplus weight `log1p (exp x) + c` with `0 ≤ c` is nonnegative for EVERY extended real `x`
  (`exp` is nonnegative, `log (1 + y)` is nonnegative for `0 ≤ y`), and so is a square `w * w`.
  Multiplication on the extended reals distributes over a sum of two NONNEGATIVE terms whatever the
  multiplier, so `s * (W + w * w) = s * W + s * (w * w)` needs no finiteness of `s`.
-/
import Idealize.ShloMosaic.PureOps.Ideal
import Idealize.ShloMosaic.PureOps.Ideal.Laws

noncomputable section

namespace Cert.Softplus

open Idealize.ShloMosaic

/-- `exp` is nonnegative on every extended real. -/
theorem exp_nonneg (x : EReal) : 0 ≤ Ideal.exp x := by
  induction x using EReal.rec with
  | bot => simp
  | coe r => rw [Ideal.exp_coe]; exact EReal.coe_nonneg.2 (Real.exp_pos r).le
  | top => simp

/-- `log (1 + y)` is nonnegative for `0 ≤ y`. -/
theorem log1p_nonneg {y : EReal} (hy : 0 ≤ y) : 0 ≤ Ideal.log1p y := by
  unfold Ideal.log1p
  induction y using EReal.rec with
  | bot => simp at hy
  | coe r =>
    have hr : 0 ≤ r := EReal.coe_nonneg.1 hy
    rw [← EReal.coe_one, ← EReal.coe_add, Ideal.log_coe, if_neg (by linarith)]
    exact EReal.coe_nonneg.2 (Real.log_nonneg (by linarith))
  | top => rw [← EReal.coe_one, EReal.coe_add_top, Ideal.log_top]; exact le_top

/-- A square is nonnegative on every extended real. -/
theorem mul_self_nonneg (w : EReal) : 0 ≤ w * w := by
  induction w using EReal.rec with
  | bot => simp [EReal.bot_mul_bot]
  | coe r => rw [← EReal.coe_mul]; exact EReal.coe_nonneg.2 (_root_.mul_self_nonneg r)
  | top => simp [EReal.top_mul_top]

end Cert.Softplus

end
-- ==== Proof.Spec.lean ====
/-
  The two matrix outputs as functions of the argument arrays, index by index, and the algebra that joins the
  kernel's arrangement to the reference's.

  Write `sp x = log (1 + exp x) + c` for the softplus with its noise floor `c` (the literal both programs add).
  For a batch row `b` and an output column `o`, with `k` ranging over the 2048 input features:

    mean  (b, o) = (Σ_k mu (b,k) · wmu (k,o)) + bmu (o,0)
    var   (b, o) = ((Σ_k sg (b,k) · sp (wsg (o,k))) + (Σ_k sg (b,k) · (wmu (k,o) · wmu (k,o))))
                     + (Σ_k (mu (b,k) · mu (b,k)) · sp (wsg (o,k))) + sp (bsg o)

  The kernel contracts the feature axis in four chunks of 512 (`chunk s r = 512·s + r`), accumulates the chunks'
  partial products from zero, and feeds its second product the precombined weight
  `A (k,o) = sp (wsg (o,k)) + wmu (k,o)·wmu (k,o)`:

    meanK (b, o) = (0 + Σ_s Σ_r mu (b, chunk s r) · w (chunk s r, o)) + brow (0,o)
    varK  (b, o) = (0 + Σ_s ((Σ_r sg (b, chunk s r) · A (chunk s r, o)) + Σ_r (mu·mu) (b, chunk s r) · C (chunk s r, o)))
                     + brow (0,o)

  Two facts make the arrangements equal on the extended reals, with no finiteness assumed of any input:
  a sum over 2048 features is the sum over the four chunks of the sums inside each chunk (sums on the extended
  reals commute and associate), and `s · (W + Q) = s · W + s · Q` whenever `0 ≤ W` and `0 ≤ Q`, whatever `s` is —
  here `W` is a softplus and `Q` a square.
-/
import Idealize.ShloMosaic.Lib.ValueIdx
import proofs.«132019_j3272765079980_1_alg».proof.Proof.Softplus

noncomputable section

namespace Cert.Spec

open Idealize.ShloMosaic Idealize.ShloMosaic.ValueIdx
open scoped BigOperators

/-- A matrix of extended reals with `r` rows and `c` columns. -/
abbrev Mat (r c : Nat) : Type := (⟨2, ![r, c]⟩ : Shape).Idx → EReal
/-- A vector of extended reals of length `n`. -/
abbrev Row (n : Nat) : Type := (⟨1, ![n]⟩ : Shape).Idx → EReal

/-- The noise floor both programs add to a softplus: the f32 nearest to `1e-6`. -/
def noise : EReal := Ideal.ofBits .f32 0x358637BD#32

/-- The noise floor is a positive normal number: sign bit clear, exponent field `107`. -/
theorem noise_nonneg : 0 ≤ noise := by
  unfold noise
  simp [Ideal.ofBits, Ideal.ieee]
  positivity

/-- Softplus with the noise floor, on every extended real. -/
def softplus (x : EReal) : EReal := Ideal.log1p (Ideal.exp x) + noise

theorem softplus_nonneg (x : EReal) : 0 ≤ softplus x :=
  add_nonneg (Cert.Softplus.log1p_nonneg (Cert.Softplus.exp_nonneg x)) noise_nonneg

/-- Feature `512·s + r`: entry `r` of chunk `s`. -/
def chunk (s : Fin 4) (r : Fin 512) : Fin 2048 := ⟨512 * s.val + r.val, by omega⟩

/-- A sum over the 2048 features is the sum over the four chunks of the sums inside each. -/
theorem sum_chunk {M : Type*} [AddCommMonoid M] (f : Fin 2048 → M) :
    ∑ k, f k = ∑ s : Fin 4, ∑ r : Fin 512, f (chunk s r) := by
  rw [← Equiv.sum_comp (finProdFinEquiv : Fin 4 × Fin 512 ≃ Fin 2048) f, Fintype.sum_prod_type]
  refine Finset.sum_congr rfl fun s _ => Finset.sum_congr rfl fun r _ => congrArg f (Fin.ext ?_)
  show r.val + 512 * s.val = 512 * s.val + r.val
  omega

/-! ## The reference's arrangement -/

/-- The mean output at row `b`, column `o`: `mu · wmu` plus the bias column read as a row. -/
def meanAt (mu : Mat 4096 2048) (wmu : Mat 2048 2048) (bmu : Mat 2048 1) (b : Fin 4096) (o : Fin 2048) : EReal :=
  (∑ k : Fin 2048, mu (ix2 b k) * wmu (ix2 k o)) + bmu (ix2 o (0 : Fin 1))

/-- The variance output at row `b`, column `o`: the three contractions added left to right, then the softplus bias. -/
def varAt (mu sg : Mat 4096 2048) (wmu wsg : Mat 2048 2048) (bsg : Row 2048) (b : Fin 4096) (o : Fin 2048) : EReal :=
  (((∑ k : Fin 2048, sg (ix2 b k) * softplus (wsg (ix2 o k)))
      + (∑ k : Fin 2048, sg (ix2 b k) * (wmu (ix2 k o) * wmu (ix2 k o))))
    + (∑ k : Fin 2048, (mu (ix2 b k) * mu (ix2 b k)) * softplus (wsg (ix2 o k))))
  + softplus (bsg (ix1 o))

def meanOut (mu : Mat 4096 2048) (wmu : Mat 2048 2048) (bmu : Mat 2048 1) : Mat 4096 2048 := fun j =>
  meanAt mu wmu bmu (j 0) (j 1)

def varOut (mu sg : Mat 4096 2048) (wmu wsg : Mat 2048 2048) (bsg : Row 2048) : Mat 4096 2048 := fun j =>
  varAt mu sg wmu wsg bsg (j 0) (j 1)

/-! ## The kernel's arrangement, over the arrays its windows stage -/

/-- One chunk's partial product `x[b, chunk s ·] · w[chunk s ·, o]`. -/
def part (x : Mat 4096 2048) (w : Mat 2048 2048) (b : Fin 4096) (o : Fin 2048) (s : Fin 4) : EReal :=
  ∑ r : Fin 512, x (ix2 b (chunk s r)) * w (ix2 (chunk s r) o)

/-- The mean output as the kernel accumulates it: from zero, chunk by chunk, then the bias row. -/
def meanKAt (mu : Mat 4096 2048) (w : Mat 2048 2048) (brow : Mat 1 2048) (b : Fin 4096) (o : Fin 2048) : EReal :=
  (0 + ∑ s : Fin 4, part mu w b o s) + brow (ix2 (0 : Fin 1) o)

/-- The variance output as the kernel accumulates it: each chunk adds its two partial products. -/
def varKAt (mu sg : Mat 4096 2048) (A C : Mat 2048 2048) (brow : Mat 1 2048) (b : Fin 4096) (o : Fin 2048) : EReal :=
  (0 + ∑ s : Fin 4, (part sg A b o s + part (fun i => mu i * mu i) C b o s)) + brow (ix2 (0 : Fin 1) o)

def meanK (mu : Mat 4096 2048) (w : Mat 2048 2048) (brow : Mat 1 2048) : Mat 4096 2048 := fun j =>
  meanKAt mu w brow (j 0) (j 1)

def varK (mu sg : Mat 4096 2048) (A C : Mat 2048 2048) (brow : Mat 1 2048) : Mat 4096 2048 := fun j =>
  varKAt mu sg A C brow (j 0) (j 1)

/-- The kernel's mean is the reference's, when the bias row is the bias column transposed. -/
theorem meanKAt_eq (mu : Mat 4096 2048) (wmu : Mat 2048 2048) (brow : Mat 1 2048) (bmu : Mat 2048 1)
    (hb : ∀ o : Fin 2048, brow (ix2 (0 : Fin 1) o) = bmu (ix2 o (0 : Fin 1))) (b : Fin 4096) (o : Fin 2048) :
    meanKAt mu wmu brow b o = meanAt mu wmu bmu b o := by
  unfold meanKAt meanAt part
  rw [zero_add, hb, sum_chunk (M := EReal) (fun k => mu (ix2 b k) * wmu (ix2 k o))]

theorem meanK_eq (mu : Mat 4096 2048) (wmu : Mat 2048 2048) (brow : Mat 1 2048) (bmu : Mat 2048 1)
    (hb : ∀ o : Fin 2048, brow (ix2 (0 : Fin 1) o) = bmu (ix2 o (0 : Fin 1))) :
    meanK mu wmu brow = meanOut mu wmu bmu :=
  funext fun j => meanKAt_eq mu wmu brow bmu hb (j 0) (j 1)

/-- The kernel's variance is the reference's, when `A` is the transposed softplus weight plus the squared mean
    weight, `C` the transposed softplus weight, and the bias row the softplus bias. -/
theorem varKAt_eq (mu sg : Mat 4096 2048) (wmu wsg A C : Mat 2048 2048) (brow : Mat 1 2048) (bsg : Row 2048)
    (hA : ∀ k o : Fin 2048, A (ix2 k o) = softplus (wsg (ix2 o k)) + wmu (ix2 k o) * wmu (ix2 k o))
    (hC : ∀ k o : Fin 2048, C (ix2 k o) = softplus (wsg (ix2 o k)))
    (hb : ∀ o : Fin 2048, brow (ix2 (0 : Fin 1) o) = softplus (bsg (ix1 o))) (b : Fin 4096) (o : Fin 2048) :
    varKAt mu sg A C brow b o = varAt mu sg wmu wsg bsg b o := by
  unfold varKAt varAt part
  rw [zero_add, hb]
  congr 1
  rw [sum_chunk (M := EReal) (fun k => sg (ix2 b k) * softplus (wsg (ix2 o k))),
    sum_chunk (M := EReal) (fun k => sg (ix2 b k) * (wmu (ix2 k o) * wmu (ix2 k o))),
    sum_chunk (M := EReal) (fun k => (mu (ix2 b k) * mu (ix2 b k)) * softplus (wsg (ix2 o k))),
    ← Finset.sum_add_distrib, ← Finset.sum_add_distrib]
  refine Finset.sum_congr rfl fun s _ => ?_
  congr 1
  · rw [← Finset.sum_add_distrib]
    refine Finset.sum_congr rfl fun r _ => ?_
    rw [hA, EReal.left_distrib_of_nonneg (softplus_nonneg _) (Cert.Softplus.mul_self_nonneg _)]
  · refine Finset.sum_congr rfl fun r _ => ?_
    rw [hC]

theorem varK_eq (mu sg : Mat 4096 2048) (wmu wsg A C : Mat 2048 2048) (brow : Mat 1 2048) (bsg : Row 2048)
    (hA : ∀ k o : Fin 2048, A (ix2 k o) = softplus (wsg (ix2 o k)) + wmu (ix2 k o) * wmu (ix2 k o))
    (hC : ∀ k o : Fin 2048, C (ix2 k o) = softplus (wsg (ix2 o k)))
    (hb : ∀ o : Fin 2048, brow (ix2 (0 : Fin 1) o) = softplus (bsg (ix1 o))) :
    varK mu sg A C brow = varOut mu sg wmu wsg bsg :=
  funext fun j => varKAt_eq mu sg wmu wsg A C brow bsg hA hC hb (j 0) (j 1)

end Cert.Spec

end
-- ==== Proof.RefValue.lean ====
/-
  The reference program's two matrix results, read index by index, are the specification's mean and variance outputs
  of its arguments.

  Each result element is read through the reference's operations one at a time. The four contractions are sums over the
  2048 input features; every other operation is pointwise or a change of layout, so it reads its operand at an index
  computed from the result's index. At row `b` and column `o` those computed indices are `(b, k)`, `(k, o)`, `(o, k)`
  and `o`: the left operand is read along its row, the mean weight down its column, the softplus weight along its row
  (its contraction runs over the second axis of both operands), and the two biases at the output column. The noise
  floor's literal stays the same word on both sides and is never evaluated.
-/
import proofs.«132019_j3272765079980_1_alg».proof.Proof.Gen.ReferenceIdeal.Read
import proofs.«132019_j3272765079980_1_alg».proof.Proof.Spec

noncomputable section

namespace Cert.ReferenceIdeal.RefValue

open Cert.ReferenceIdeal Cert.ReferenceIdeal.Read Idealize.ShloMosaic Idealize.ShloMosaic.ValueIdx
open scoped BigOperators

/-! ## The computed indices at row `b`, column `o` -/

/-- The first contraction reads its left operand at `(b, k)`. -/
theorem lidx0 (b : Fin 4096) (o k : Fin 2048) : lidx_main_v0 (ix2 b o) k = ix2 b k :=
  funext fun a => Fin.ext (by match a with | ⟨0, _⟩ => rfl | ⟨1, _⟩ => rfl)

/-- The first contraction reads its right operand at `(k, o)`. -/
theorem ridx0 (b : Fin 4096) (o k : Fin 2048) : ridx_main_v0 (ix2 b o) k = ix2 k o :=
  funext fun a => Fin.ext (by match a with | ⟨0, _⟩ => rfl | ⟨1, _⟩ => rfl)

/-- The mean bias, a column reshaped to a vector and broadcast along the rows, is read at `(o, 0)`. -/
theorem idxBias (b : Fin 4096) (o : Fin 2048) :
    idx_main_v1 (idx_main_v2 (idx_main_v3 (ix2 b o))) = ix2 o (0 : Fin 1) :=
  funext fun a => Fin.ext (by
    match a with
    | ⟨0, _⟩ => exact Nat.div_one _
    | ⟨1, _⟩ => rfl)

theorem lidx13 (b : Fin 4096) (o k : Fin 2048) : lidx_main_v13 (ix2 b o) k = ix2 b k :=
  funext fun a => Fin.ext (by match a with | ⟨0, _⟩ => rfl | ⟨1, _⟩ => rfl)

/-- A contraction over the second axis of both operands reads its right operand at `(o, k)`. -/
theorem ridx13 (b : Fin 4096) (o k : Fin 2048) : ridx_main_v13 (ix2 b o) k = ix2 o k :=
  funext fun a => Fin.ext (by match a with | ⟨0, _⟩ => rfl | ⟨1, _⟩ => rfl)

theorem lidx15 (b : Fin 4096) (o k : Fin 2048) : lidx_main_v15 (ix2 b o) k = ix2 b k :=
  funext fun a => Fin.ext (by match a with | ⟨0, _⟩ => rfl | ⟨1, _⟩ => rfl)

theorem ridx15 (b : Fin 4096) (o k : Fin 2048) : ridx_main_v15 (ix2 b o) k = ix2 k o :=
  funext fun a => Fin.ext (by match a with | ⟨0, _⟩ => rfl | ⟨1, _⟩ => rfl)

theorem lidx17 (b : Fin 4096) (o k : Fin 2048) : lidx_main_v17 (ix2 b o) k = ix2 b k :=
  funext fun a => Fin.ext (by match a with | ⟨0, _⟩ => rfl | ⟨1, _⟩ => rfl)

theorem ridx17 (b : Fin 4096) (o k : Fin 2048) : ridx_main_v17 (ix2 b o) k = ix2 o k :=
  funext fun a => Fin.ext (by match a with | ⟨0, _⟩ => rfl | ⟨1, _⟩ => rfl)

/-- The softplus bias, a vector broadcast along the rows, is read at `o`. -/
theorem idxSBias (b : Fin 4096) (o : Fin 2048) : idx_main_v20 (idx_main_v21 (ix2 b o)) = ix1 o :=
  funext fun a => Fin.ext (by match a with | ⟨0, _⟩ => rfl)

/-! ## The two results at row `b`, column `o` -/

theorem mean_at (x0 : Cert.Spec.Mat 4096 2048) (x2 : Cert.Spec.Mat 2048 2048) (x4 : Cert.Spec.Mat 2048 1)
    (b : Fin 4096) (o : Fin 2048) :
    val_main_v4 (F := Ideal) x0 x2 x4 (ix2 b o) = Cert.Spec.meanAt x0 x2 x4 b o := by
  rw [val_main_v4_apply, val_main_v0_apply, val_main_v3_apply, val_main_v2_apply, val_main_v1_apply]
  simp only [lidx0, ridx0, idxBias, Ideal.addf_def]
  rfl

theorem var_at (x0 x1 : Cert.Spec.Mat 4096 2048) (x2 x3 : Cert.Spec.Mat 2048 2048) (x5 : Cert.Spec.Row 2048)
    (b : Fin 4096) (o : Fin 2048) :
    val_main_v22 (F := Ideal) x0 x1 x2 x3 x5 (ix2 b o) = Cert.Spec.varAt x0 x1 x2 x3 x5 b o := by
  rw [val_main_v22_apply, val_main_v19_apply, val_main_v18_apply, val_main_v13_apply, val_main_v15_apply,
    val_main_v17_apply, val_main_v21_apply, val_main_v20_apply, val_main_v12_apply, val_main_v10_apply,
    val_main_v9_apply, val_main_v11_apply, val_main_cst_0_apply]
  simp only [val_main_v8_apply, val_main_v6_apply, val_main_v5_apply, val_main_v7_apply, val_main_cst_apply,
    val_main_v14_apply, val_main_v16_apply, lidx13, ridx13, lidx15, ridx15, lidx17, ridx17, idxSBias,
    Ideal.addf_def, Ideal.mulf_def, Ideal.hostUnary_exp_def, Ideal.hostUnary_log1p_def, Ideal.ofBits_def]
  rfl

/-! ## The two results as arrays -/

/-- The reference's mean result is the specification's mean output. -/
theorem mean_eq (x0 : Cert.Spec.Mat 4096 2048) (x2 : Cert.Spec.Mat 2048 2048) (x4 : Cert.Spec.Mat 2048 1) :
    val_main_v4 (F := Ideal) x0 x2 x4 = Cert.Spec.meanOut x0 x2 x4 := by
  funext j
  obtain ⟨b, o, rfl⟩ : ∃ (b : Fin 4096) (o : Fin 2048), j = ix2 b o := ⟨j 0, j 1, eq_ix2 j⟩
  exact mean_at x0 x2 x4 b o

/-- The reference's variance result is the specification's variance output. -/
theorem var_eq (x0 x1 : Cert.Spec.Mat 4096 2048) (x2 x3 : Cert.Spec.Mat 2048 2048) (x5 : Cert.Spec.Row 2048) :
    val_main_v22 (F := Ideal) x0 x1 x2 x3 x5 = Cert.Spec.varOut x0 x1 x2 x3 x5 := by
  funext j
  obtain ⟨b, o, rfl⟩ : ∃ (b : Fin 4096) (o : Fin 2048), j = ix2 b o := ⟨j 0, j 1, eq_ix2 j⟩
  exact var_at x0 x1 x2 x3 x5 b o

end Cert.ReferenceIdeal.RefValue

end
-- ==== Proof.Pieces.lean ====
/-
  What each control case of the kernel body leaves in the two accumulators and the two output blocks, as values.

  The body has three cases by the reduction coordinate `k`: at `k = 0` it zeroes both accumulators and then adds
  the chunk's partial products; at `0 < k < 3` it only adds; at `k = 3` it adds and then stores each accumulator
  plus its bias row into the output block. With `x0, x1` the blocks of `mu`, `sg`, `x2, x3, x4` the blocks of the
  three weight matrices, `x5, x6` the bias rows and `xs0, xs1` what the point before left in the accumulators:

    mean accumulator:  step x0 x2 acc      (`k0_pay5`: acc + x0 · x2),       from the zero block `k0_pay3` at k = 0
    var  accumulator:  step' x0 x1 x3 x4 acc (`k0_pay6`: acc + (x1 · x3 + (x0 ∘ x0) · x4)), from `k0_pay4` at k = 0
    mean output at k = 3:  `k0_pay1` (the mean accumulator after its step) x5
    var  output at k = 3:  `k0_pay2` (the var accumulator after its step) x6

  Each value is the payload of the case's last covering store, its loads reading whole buffers; a load of an
  accumulator after a store in the same case reads that store's payload back.
-/
import proofs.«132019_j3272765079980_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]
variable (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole)
variable (x0 x1 : Vec F S1024x512 .f32) (x2 x3 x4 : Vec F S512x512 .bf16) (x5 x6 : Vec F S1x512 .f32) (xs0 xs1 : Vec F S1024x512 .f32)

theorem hz : (![0, 0] : Fin 2 → Nat) = fun _ => 0 := funext fun a => by fin_cases a <;> rfl

/-! ## k = 0: reset, then the first chunk -/

theorem meanAcc_A (hc0 : cond0_0 i) (hc1 : ¬cond0_1 i) :
    sout0_A_0 c i arg3 harg3 arg4 harg4 arg5 harg5 arg6 harg6 arg7 harg7 arg8 harg8 arg9 harg9 arg10 harg10 arg11 harg11 arg12 harg12 arg13 harg13 hc0 hc1 x0 x1 x2 x3 x4 x5 x6 = k0_pay5 x0 x2 (k0_pay3 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun0_A
  dsimp only
  sl_unfold_words
  rw [View.canon_cons_unit_zero (S := S1024x512) hz]
  simp only [View.readAt_eq_ld, harg3.read_unread, harg4.read_unread, harg5.read_unread, harg6.read_unread, harg7.read_unread, harg8.read_unread, harg9.read_unread, harg12.read_unread, harg13.read_unread, View.ld_unit_zero (S := S1024x512) hz, View.ld_unit_zero (S := S512x512) hz, View.ld_unit_zero (S := S1x512) hz, View.readCov_unit_zero (S := S1024x512) _ hz]

theorem varAcc_A (hc0 : cond0_0 i) (hc1 : ¬cond0_1 i) :
    sout0_A_1 c i arg3 harg3 arg4 harg4 arg5 harg5 arg6 harg6 arg7 harg7 arg8 harg8 arg9 harg9 arg10 harg10 arg11 harg11 arg12 harg12 arg13 harg13 hc0 hc1 x0 x1 x2 x3 x4 x5 x6 = k0_pay6 x0 x1 x3 x4 (k0_pay4 (F := F)) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun0_A
  dsimp only
  sl_unfold_words
  rw [View.canon_cons_unit_zero (S := S1024x512) hz]
  simp only [View.readAt_eq_ld, harg3.read_unread, harg4.read_unread, harg5.read_unread, harg6.read_unread, harg7.read_unread, harg8.read_unread, harg9.read_unread, harg12.read_unread, harg13.read_unread, View.ld_unit_zero (S := S1024x512) hz, View.ld_unit_zero (S := S512x512) hz, View.ld_unit_zero (S := S1x512) hz, View.readCov_unit_zero (S := S1024x512) _ hz]

/-! ## 0 < k < 3: one more chunk -/

theorem meanAcc_B (hc0 : ¬cond0_0 i) (hc1 : ¬cond0_1 i) :
    sout0_B_0 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 = k0_pay5 x0 x2 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg12.read_unread, harg13.read_unread, View.ld_unit_zero (S := S1024x512) hz, View.ld_unit_zero (S := S512x512) hz, View.ld_unit_zero (S := S1x512) hz, View.readCov_unit_zero (S := S1024x512) _ hz]

theorem varAcc_B (hc0 : ¬cond0_0 i) (hc1 : ¬cond0_1 i) :
    sout0_B_1 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 = k0_pay6 x0 x1 x3 x4 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg12.read_unread, harg13.read_unread, View.ld_unit_zero (S := S1024x512) hz, View.ld_unit_zero (S := S512x512) hz, View.ld_unit_zero (S := S1x512) hz, View.readCov_unit_zero (S := S1024x512) _ hz]

/-! ## k = 3: the last chunk, then the outputs -/

theorem meanAcc_C (hc0 : ¬cond0_0 i) (hc1 : cond0_1 i) :
    sout0_C_0 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 = k0_pay5 x0 x2 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg12.read_unread, harg13.read_unread, View.ld_unit_zero (S := S1024x512) hz, View.ld_unit_zero (S := S512x512) hz, View.ld_unit_zero (S := S1x512) hz, View.readCov_unit_zero (S := S1024x512) _ hz]

theorem varAcc_C (hc0 : ¬cond0_0 i) (hc1 : cond0_1 i) :
    sout0_C_1 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 = k0_pay6 x0 x1 x3 x4 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg12.read_unread, harg13.read_unread, View.ld_unit_zero (S := S1024x512) hz, View.ld_unit_zero (S := S512x512) hz, View.ld_unit_zero (S := S1x512) hz, View.readCov_unit_zero (S := S1024x512) _ hz]

theorem meanOut_C (hc0 : ¬cond0_0 i) (hc1 : cond0_1 i) :
    out0_C_7 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 = k0_pay1 (k0_pay5 x0 x2 xs0) x5 := by
  unfold out0_C_7
  rw [View.read_writes_eq_canon _ _ _ (cover0_C_7 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg12.read_unread, harg13.read_unread, View.ld_unit_zero (S := S1024x512) hz, View.ld_unit_zero (S := S512x512) hz, View.ld_unit_zero (S := S1x512) hz, View.readCov_unit_zero (S := S1024x512) _ hz]

theorem varOut_C (hc0 : ¬cond0_0 i) (hc1 : cond0_1 i) :
    out0_C_8 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 = k0_pay2 (k0_pay6 x0 x1 x3 x4 xs1) x6 := by
  unfold out0_C_8
  rw [View.read_writes_eq_canon _ _ _ (cover0_C_8 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg12.read_unread, harg13.read_unread, View.ld_unit_zero (S := S1024x512) hz, View.ld_unit_zero (S := S512x512) hz, View.ld_unit_zero (S := S1x512) hz, View.readCov_unit_zero (S := S1024x512) _ hz]

end Cert.KernelIdeal.Pieces

end
-- ==== Proof.Payloads.lean ====
/-
  The kernel body's arithmetic, entry by entry, on the extended reals.

  A chunk's product of a 1024×512 block `x` by a 512×512 block `w` from the zero accumulator is, at row `p` and
  column `q`, the sum over the chunk's 512 features `r` of `x (p,r) · w (r,q)` (a change of float format is the
  identity). So, at `(p, q)`:

    the mean accumulator's step   adds  Σ_r x0 (p,r) · x2 (r,q)  to what it held;
    the var accumulator's step    adds  (Σ_r x1 (p,r) · x3 (r,q)) + Σ_r (x0 (p,r) · x0 (p,r)) · x4 (r,q);
    the reset blocks are zero;
    each output is its accumulator plus the bias row's entry `(0, q)`.
-/
import proofs.«132019_j3272765079980_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payloads

open Cert.KernelIdeal Cert.KernelIdeal.Gen Idealize.ShloMosaic Idealize.ShloMosaic.ValueIdx
open scoped BigOperators

/-! ## The chunk product at an entry -/

theorem lhs_mm_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_mm_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_mm_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_mm_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The product of a 1024×512 block by a 512×512 block from the zero accumulator, at row `p`, column `q`. -/
theorem mm_apply {φ₁ φ₂ : FTy} (x : FVec Ideal S1024x512 φ₁) (w : FVec Ideal S512x512 φ₂) (p : Fin 1024) (q : Fin 512) :
    matmul (F := Ideal) dot_S1024x512_S512x512_S1024x512_1_0_0_1_n_n none x w (constant S1024x512 .f32 0x00000000#32) (ix2 p q)
      = ∑ r : Fin 512, x (ix2 p r) * w (ix2 r q) := by
  show FloatOps.matmul dot_S1024x512_S512x512_S1024x512_1_0_0_1_n_n none x w (constant S1024x512 .f32 0x00000000#32) (ix2 p q) = _
  rw [Ideal.matmul_constant_zero_apply, ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 p q) ((ValueIdx.contrEquiv1 dot_S1024x512_S512x512_S1024x512_1_0_0_1_n_n 512 rfl rfl).symm k) = ix2 p k := funext fun a => Fin.ext (by
    match a with
    | ⟨0, _⟩ => exact lhs_mm_0 _ _
    | ⟨1, _⟩ => exact (lhs_mm_1 _ _).trans hk)
  have er : dot_S1024x512_S512x512_S1024x512_1_0_0_1_n_n.rhsIdx (ix2 p q) ((ValueIdx.contrEquiv1 dot_S1024x512_S512x512_S1024x512_1_0_0_1_n_n 512 rfl rfl).symm k) = ix2 k q := funext fun a => Fin.ext (by
    match a with
    | ⟨0, _⟩ => exact (rhs_mm_0 _ _).trans hk
    | ⟨1, _⟩ => exact rhs_mm_1 _ _)
  rw [el, er]

/-! ## The payloads at an entry -/

/-- The mean accumulator's reset block is zero. -/
theorem zeroMean_apply (j : S1024x512.Idx) : k0_pay3 (F := Ideal) j = 0 := by
  unfold k0_pay3
  simp only [shapeCast_self]
  exact Ideal.ofBits_zero_f32

/-- The var accumulator's reset block is zero. -/
theorem zeroVar_apply (j : S1024x512.Idx) : k0_pay4 (F := Ideal) j = 0 := by
  unfold k0_pay4
  simp only [shapeCast_self]
  exact Ideal.ofBits_zero_f32

/-- The mean accumulator's step at `(p, q)`. -/
theorem meanStep_apply (x0 : Vec Ideal S1024x512 .f32) (x2 : Vec Ideal S512x512 .bf16) (acc : Vec Ideal S1024x512 .f32)
    (p : Fin 1024) (q : Fin 512) :
    k0_pay5 x0 x2 acc (ix2 p q) = acc (ix2 p q) + ∑ r : Fin 512, x0 (ix2 p r) * x2 (ix2 r q) := by
  unfold k0_pay5
  simp only [shapeCast_self]
  rw [addf_apply, mm_apply]
  rfl

/-- The var accumulator's step at `(p, q)`. -/
theorem varStep_apply (x0 x1 : Vec Ideal S1024x512 .f32) (x3 x4 : Vec Ideal S512x512 .bf16) (acc : Vec Ideal S1024x512 .f32)
    (p : Fin 1024) (q : Fin 512) :
    k0_pay6 x0 x1 x3 x4 acc (ix2 p q)
      = acc (ix2 p q) + ((∑ r : Fin 512, x1 (ix2 p r) * x3 (ix2 r q)) + ∑ r : Fin 512, (x0 (ix2 p r) * x0 (ix2 p r)) * x4 (ix2 r q)) := by
  unfold k0_pay6
  simp only [shapeCast_self]
  rw [addf_apply, addf_apply, mm_apply, mm_apply]
  rfl

/-- A bias row broadcast down the block's rows, at `(p, q)`. -/
theorem biasRow_apply (x : Vec Ideal S1x512 .f32) (p : Fin 1024) (q : Fin 512) :
    broadcastTo S1024x512 x broadcasts_S1x512_S1024x512 (ix2 p q) = x (ix2 (0 : Fin 1) q) := by
  refine broadcastTo_apply x broadcasts_S1x512_S1024x512 (ix2 p q) (ix2 (0 : Fin 1) q) fun a => ?_
  match a with
  | ⟨0, _⟩ => rfl
  | ⟨1, _⟩ => rfl

/-- The mean output at `(p, q)`: the accumulator plus the bias row. -/
theorem meanOut_apply (v : Vec Ideal S1024x512 .f32) (x5 : Vec Ideal S1x512 .f32) (p : Fin 1024) (q : Fin 512) :
    k0_pay1 v x5 (ix2 p q) = v (ix2 p q) + x5 (ix2 (0 : Fin 1) q) := by
  unfold k0_pay1
  simp only [shapeCast_self]
  rw [addf_apply, biasRow_apply]

/-- The var output at `(p, q)`: the accumulator plus the bias row. -/
theorem varOut_apply (v : Vec Ideal S1024x512 .f32) (x6 : Vec Ideal S1x512 .f32) (p : Fin 1024) (q : Fin 512) :
    k0_pay2 v x6 (ix2 p q) = v (ix2 p q) + x6 (ix2 (0 : Fin 1) q) := by
  unfold k0_pay2
  simp only [shapeCast_self]
  rw [addf_apply, biasRow_apply]

end Cert.KernelIdeal.Payloads

end
-- ==== Proof.Fold.lean ====
/-
  The two accumulators after each grid point, as sums of the chunk products so far.

  The points run in the order `t = 16·i + 4·j + k`; a run of four consecutive points `4·u, …, 4·u + 3` shares its
  output block `(i, j)` and walks the reduction coordinate `k = 0, 1, 2, 3`. The first point of a run stores
  `0 + (its chunk product)` into each accumulator and every later point adds its own, so after point `t` the mean
  accumulator holds, entry by entry,

      0 + Σ_{s ≤ t % 4} (mu block at point 4·(t/4) + s) · (wmu block at that point)

  and the var accumulator the same sum of `(sg block)·(A block) + (mu∘mu block)·(C block)`. At the run's last point
  each output block is its accumulator plus the bias row.
-/
import proofs.«132019_j3272765079980_1_alg».proof.Proof.Gen.KernelIdeal.Value
import proofs.«132019_j3272765079980_1_alg».proof.Proof.Pieces
import proofs.«132019_j3272765079980_1_alg».proof.Proof.Payloads

noncomputable section

namespace Cert.KernelIdeal.Fold

open Cert.KernelIdeal Cert.KernelIdeal.Gen Idealize.ShloMosaic Idealize.ShloMosaic.TcCoe Idealize.ShloMosaic.ValueIdx Idealize.SL.Sem
open scoped BigOperators

variable (m : (ℓ : Loc nD τ sig) → Buf (Elt Ideal) ℓ)

/-! ## The windows' blocks at a point, at their literal types -/

abbrev muB (c : Dev nD) (t : Fin cfg0.N) : Vec Ideal S1024x512 .f32 := iblk m c 0 t
abbrev sgB (c : Dev nD) (t : Fin cfg0.N) : Vec Ideal S1024x512 .f32 := iblk m c 1 t
abbrev wB (c : Dev nD) (t : Fin cfg0.N) : Vec Ideal S512x512 .bf16 := iblk m c 2 t
abbrev aB (c : Dev nD) (t : Fin cfg0.N) : Vec Ideal S512x512 .bf16 := iblk m c 3 t
abbrev cB (c : Dev nD) (t : Fin cfg0.N) : Vec Ideal S512x512 .bf16 := iblk m c 4 t
abbrev bmuB (c : Dev nD) (t : Fin cfg0.N) : Vec Ideal S1x512 .f32 := iblk m c 5 t
abbrev bsgB (c : Dev nD) (t : Fin cfg0.N) : Vec Ideal S1x512 .f32 := iblk m c 6 t

/-! ## What a point does to each accumulator -/

/-- At the first point of a run the mean accumulator is stored whole: the zero block plus the chunk product. -/
theorem meanSc_reset (c : Dev nD) (n : ℕ) (hb : n < cfg0.N) (h0 : n % 4 = 0) (acc : Vec Ideal S1024x512 .f32) :
    Value.scAt0_0 m c n hb acc = k0_pay5 (muB m c ⟨n, hb⟩) (wB m c ⟨n, hb⟩) (k0_pay3 (F := Ideal)) := by
  unfold Value.scAt0_0
  rw [dif_pos h0, dif_neg (by omega)]
  exact Pieces.meanAcc_A (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) _ _

/-- At every later point of a run the mean accumulator gains the point's chunk product. -/
theorem meanSc_step (c : Dev nD) (n : ℕ) (hb : n < cfg0.N) (h0 : ¬n % 4 = 0) (acc : Vec Ideal S1024x512 .f32) :
    Value.scAt0_0 m c n hb acc = k0_pay5 (muB m c ⟨n, hb⟩) (wB m c ⟨n, hb⟩) acc := by
  unfold Value.scAt0_0
  by_cases h1 : n % 4 = 3
  · rw [dif_neg h0, dif_pos h1]
    exact Pieces.meanAcc_C (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc _ _ _
  · rw [dif_neg h0, dif_neg h1]
    exact Pieces.meanAcc_B (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc _ _ _

theorem varSc_reset (c : Dev nD) (n : ℕ) (hb : n < cfg0.N) (h0 : n % 4 = 0) (acc : Vec Ideal S1024x512 .f32) :
    Value.scAt0_1 m c n hb acc = k0_pay6 (muB m c ⟨n, hb⟩) (sgB m c ⟨n, hb⟩) (aB m c ⟨n, hb⟩) (cB m c ⟨n, hb⟩) (k0_pay4 (F := Ideal)) := by
  unfold Value.scAt0_1
  rw [dif_pos h0, dif_neg (by omega)]
  exact Pieces.varAcc_A (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) _ _

theorem varSc_step (c : Dev nD) (n : ℕ) (hb : n < cfg0.N) (h0 : ¬n % 4 = 0) (acc : Vec Ideal S1024x512 .f32) :
    Value.scAt0_1 m c n hb acc = k0_pay6 (muB m c ⟨n, hb⟩) (sgB m c ⟨n, hb⟩) (aB m c ⟨n, hb⟩) (cB m c ⟨n, hb⟩) acc := by
  unfold Value.scAt0_1
  by_cases h1 : n % 4 = 3
  · rw [dif_neg h0, dif_pos h1]
    exact Pieces.varAcc_C (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) _ acc _ _
  · rw [dif_neg h0, dif_neg h1]
    exact Pieces.varAcc_B (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) _ acc _ _

/-! ## A point's addends, entry by entry -/

/-- Point `n`'s chunk product for the mean at `(p, q)` (zero past the grid, where it is never used). -/
def meanAddAt (c : Dev nD) (n : ℕ) (p : Fin 1024) (q : Fin 512) : EReal :=
  if h : n < cfg0.N then ∑ r : Fin 512, muB m c ⟨n, h⟩ (ix2 p r) * wB m c ⟨n, h⟩ (ix2 r q) else 0

def meanAdd (c : Dev nD) (n : ℕ) : S1024x512.Idx → EReal := fun y => meanAddAt m c n (y 0) (y 1)

/-- Point `n`'s two chunk products for the variance at `(p, q)`. -/
def varAddAt (c : Dev nD) (n : ℕ) (p : Fin 1024) (q : Fin 512) : EReal :=
  if h : n < cfg0.N then
    (∑ r : Fin 512, sgB m c ⟨n, h⟩ (ix2 p r) * aB m c ⟨n, h⟩ (ix2 r q))
      + ∑ r : Fin 512, (muB m c ⟨n, h⟩ (ix2 p r) * muB m c ⟨n, h⟩ (ix2 p r)) * cB m c ⟨n, h⟩ (ix2 r q)
  else 0

def varAdd (c : Dev nD) (n : ℕ) : S1024x512.Idx → EReal := fun y => varAddAt m c n (y 0) (y 1)

/-! ## The accumulators after point `t` -/

/-- The mean accumulator after point `t`: zero plus the chunk products of the run's points up to `t`. -/
theorem meanAcc_fold (c : Dev nD) (t : Fin cfg0.N) (p : Fin 1024) (q : Fin 512) :
    (outsAt0 m c t.val t.isLt).2.2.1 (ix2 p q)
      = 0 + ∑ s ∈ Finset.range (t.val % 4 + 1), meanAddAt m c (4 * (t.val / 4) + s) p q := by
  rw [Value.soutsAt0_0_eq m c t]
  refine Pipeline.accAt_add_apply (N := cfg0.N) (fun n h => Value.scAt0_0 m c n h (VS0_0.read (Elt Ideal) VS0_0.junk))
    (Value.scAt0_0 m c) (fun _ => 0) (meanAdd m c) (4 * (t.val / 4)) 3 ?_ ?_ (t.val % 4) (by omega) _ (ix2 p q)
  · intro h i
    obtain ⟨p', q', rfl⟩ : ∃ (p' : Fin 1024) (q' : Fin 512), i = ix2 p' q' := ⟨i 0, i 1, eq_ix2 i⟩
    rw [meanSc_reset m c _ h (by omega), Payloads.meanStep_apply, Payloads.zeroMean_apply]
    show (0 : EReal) + _ = 0 + meanAddAt m c (4 * (t.val / 4)) p' q'
    unfold meanAddAt
    rw [dif_pos h]
  · intro n h acc i hlt hle
    obtain ⟨p', q', rfl⟩ : ∃ (p' : Fin 1024) (q' : Fin 512), i = ix2 p' q' := ⟨i 0, i 1, eq_ix2 i⟩
    rw [meanSc_step m c n h (by omega), Payloads.meanStep_apply]
    show acc (ix2 p' q') + _ = acc (ix2 p' q') + meanAddAt m c n p' q'
    unfold meanAddAt
    rw [dif_pos h]

/-- The var accumulator after point `t`. -/
theorem varAcc_fold (c : Dev nD) (t : Fin cfg0.N) (p : Fin 1024) (q : Fin 512) :
    (outsAt0 m c t.val t.isLt).2.2.2 (ix2 p q)
      = 0 + ∑ s ∈ Finset.range (t.val % 4 + 1), varAddAt m c (4 * (t.val / 4) + s) p q := by
  rw [Value.soutsAt0_1_eq m c t]
  refine Pipeline.accAt_add_apply (N := cfg0.N) (fun n h => Value.scAt0_1 m c n h (VS0_1.read (Elt Ideal) VS0_1.junk))
    (Value.scAt0_1 m c) (fun _ => 0) (varAdd m c) (4 * (t.val / 4)) 3 ?_ ?_ (t.val % 4) (by omega) _ (ix2 p q)
  · intro h i
    obtain ⟨p', q', rfl⟩ : ∃ (p' : Fin 1024) (q' : Fin 512), i = ix2 p' q' := ⟨i 0, i 1, eq_ix2 i⟩
    rw [varSc_reset m c _ h (by omega), Payloads.varStep_apply, Payloads.zeroVar_apply]
    show (0 : EReal) + _ = 0 + varAddAt m c (4 * (t.val / 4)) p' q'
    unfold varAddAt
    rw [dif_pos h]
  · intro n h acc i hlt hle
    obtain ⟨p', q', rfl⟩ : ∃ (p' : Fin 1024) (q' : Fin 512), i = ix2 p' q' := ⟨i 0, i 1, eq_ix2 i⟩
    rw [varSc_step m c n h (by omega), Payloads.varStep_apply]
    show acc (ix2 p' q') + _ = acc (ix2 p' q') + varAddAt m c n p' q'
    unfold varAddAt
    rw [dif_pos h]

/-! ## The output blocks at the last point of a run -/

/-- At a run's last point the mean output block is the mean accumulator plus the bias row. -/
theorem meanOut_last (c : Dev nD) (t : Fin cfg0.N) (h3 : t.val % 4 = 3) :
    (outsAt0 m c t.val t.isLt).1 = k0_pay1 ((outsAt0 m c t.val t.isLt).2.2.1) (bmuB m c t) := by
  rw [outsAt0_C m c t (by omega) h3]
  dsimp only
  rw [Pieces.meanOut_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2 _ _,
    Pieces.meanAcc_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2 _ _]

/-- At a run's last point the var output block is the var accumulator plus the bias row. -/
theorem varOut_last (c : Dev nD) (t : Fin cfg0.N) (h3 : t.val % 4 = 3) :
    (outsAt0 m c t.val t.isLt).2.1 = k0_pay2 ((outsAt0 m c t.val t.isLt).2.2.2) (bsgB m c t) := by
  rw [outsAt0_C m c t (by omega) h3]
  dsimp only
  rw [Pieces.varOut_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2 _ _,
    Pieces.varAcc_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2 _ _]

end Cert.KernelIdeal.Fold

end
-- ==== Proof.Blocks.lean ====
/-
  The geometry of the kernel's pipeline windows: which entries of its array each window's block holds at a grid
  point, and that the flushed blocks of the two output windows cover their arrays.

  The grid is 4 × 4 × 4; the linear point t has coordinates (i, j, k) = (t / 16, t / 4 % 4, t % 4). A block's
  coordinate on an axis is (block index) × (block extent) + (coordinate inside the block).
-/
import proofs.«132019_j3272765079980_1_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx

variable {F : FTy → Type} [FloatOps F] (m : (ℓ : Loc nD τ sig) → Buf (Elt F) ℓ)

/-! ## The index maps, decided over the 64 grid points -/

/-- Windows 0 and 1 (block index (i, k)). -/
theorem idx_facts01 : ∀ t : Fin cfg0.N,
    win0_0.index t (0 : Fin 2) = t.val / 16 ∧ win0_0.index t (1 : Fin 2) = t.val % 4
    ∧ win0_1.index t (0 : Fin 2) = t.val / 16 ∧ win0_1.index t (1 : Fin 2) = t.val % 4 :=
  (by decide +kernel : ∀ t : Fin grid0.N, _)

/-- Windows 2, 3 and 4 (block index (k, j)). -/
theorem idx_facts234 : ∀ t : Fin cfg0.N,
    win0_2.index t (0 : Fin 2) = t.val % 4 ∧ win0_2.index t (1 : Fin 2) = t.val / 4 % 4
    ∧ win0_3.index t (0 : Fin 2) = t.val % 4 ∧ win0_3.index t (1 : Fin 2) = t.val / 4 % 4
    ∧ win0_4.index t (0 : Fin 2) = t.val % 4 ∧ win0_4.index t (1 : Fin 2) = t.val / 4 % 4 :=
  (by decide +kernel : ∀ t : Fin grid0.N, _)

/-- Windows 5 and 6 (block index (0, j)). -/
theorem idx_facts56 : ∀ t : Fin cfg0.N,
    win0_5.index t (0 : Fin 2) = 0 ∧ win0_5.index t (1 : Fin 2) = t.val / 4 % 4
    ∧ win0_6.index t (0 : Fin 2) = 0 ∧ win0_6.index t (1 : Fin 2) = t.val / 4 % 4 :=
  (by decide +kernel : ∀ t : Fin grid0.N, _)

/-- The output windows 7 and 8 (block index (i, j)). -/
theorem idx_facts78 : ∀ t : Fin cfg0.N,
    win0_7.index t (0 : Fin 2) = t.val / 16 ∧ win0_7.index t (1 : Fin 2) = t.val / 4 % 4
    ∧ win0_8.index t (0 : Fin 2) = t.val / 16 ∧ win0_8.index t (1 : Fin 2) = t.val / 4 % 4 :=
  (by decide +kernel : ∀ t : Fin grid0.N, _)

/-! ## Block reads: the block of window w at point t, entry by entry, is its array at the shifted index -/

/-- Window 0 holds rows 1024 i … 1024 i + 1023 and columns 512 k … 512 k + 511 of its array. -/
theorem blk0_apply (c : Dev nD) (t : Fin cfg0.N) (p : Fin 1024) (r : Fin 512)
    (hb : 1024 * (t.val / 16) + p.val < 4096) (hk : 512 * (t.val % 4) + r.val < 2048) :
    (iblk m c 0 t : Vec F S1024x512 .f32) (ix2 p r)
      = V m c main_arg0 (ix2 ⟨1024 * (t.val / 16) + p.val, hb⟩ ⟨512 * (t.val % 4) + r.val, hk⟩) := by
  obtain ⟨e0, e1, -, -⟩ := idx_facts01 t
  unfold iblk
  rw [View.read_apply]
  show V m c main_arg0 _ = V m c main_arg0 _
  congr 1
  funext a
  apply Fin.ext
  match a with
  | ⟨0, _⟩ => show win0_0.index t (0 : Fin 2) * 1024 + 1 * p.val = 1024 * (t.val / 16) + p.val; rw [e0]; omega
  | ⟨1, _⟩ => show win0_0.index t (1 : Fin 2) * 512 + 1 * r.val = 512 * (t.val % 4) + r.val; rw [e1]; omega

/-- Window 1 holds rows 1024 i … 1024 i + 1023 and columns 512 k … 512 k + 511 of its array. -/
theorem blk1_apply (c : Dev nD) (t : Fin cfg0.N) (p : Fin 1024) (r : Fin 512)
    (hb : 1024 * (t.val / 16) + p.val < 4096) (hk : 512 * (t.val % 4) + r.val < 2048) :
    (iblk m c 1 t : Vec F S1024x512 .f32) (ix2 p r)
      = V m c main_arg1 (ix2 ⟨1024 * (t.val / 16) + p.val, hb⟩ ⟨512 * (t.val % 4) + r.val, hk⟩) := by
  obtain ⟨-, -, e0, e1⟩ := idx_facts01 t
  unfold iblk
  rw [View.read_apply]
  show V m c main_arg1 _ = V m c main_arg1 _
  congr 1
  funext a
  apply Fin.ext
  match a with
  | ⟨0, _⟩ => show win0_1.index t (0 : Fin 2) * 1024 + 1 * p.val = 1024 * (t.val / 16) + p.val; rw [e0]; omega
  | ⟨1, _⟩ => show win0_1.index t (1 : Fin 2) * 512 + 1 * r.val = 512 * (t.val % 4) + r.val; rw [e1]; omega

/-- Window 2 holds rows 512 k … 512 k + 511 and columns 512 j … 512 j + 511 of its array. -/
theorem blk2_apply (c : Dev nD) (t : Fin cfg0.N) (r q : Fin 512)
    (hk : 512 * (t.val % 4) + r.val < 2048) (ho : 512 * (t.val / 4 % 4) + q.val < 2048) :
    (iblk m c 2 t : Vec F S512x512 .bf16) (ix2 r q)
      = V m c main_v37 (ix2 ⟨512 * (t.val % 4) + r.val, hk⟩ ⟨512 * (t.val / 4 % 4) + q.val, ho⟩) := by
  obtain ⟨e0, e1, -, -, -, -⟩ := idx_facts234 t
  unfold iblk
  rw [View.read_apply]
  show V m c main_v37 _ = V m c main_v37 _
  congr 1
  funext a
  apply Fin.ext
  match a with
  | ⟨0, _⟩ => show win0_2.index t (0 : Fin 2) * 512 + 1 * r.val = 512 * (t.val % 4) + r.val; rw [e0]; omega
  | ⟨1, _⟩ => show win0_2.index t (1 : Fin 2) * 512 + 1 * q.val = 512 * (t.val / 4 % 4) + q.val; rw [e1]; omega

/-- Window 3 holds rows 512 k … 512 k + 511 and columns 512 j … 512 j + 511 of its array. -/
theorem blk3_apply (c : Dev nD) (t : Fin cfg0.N) (r q : Fin 512)
    (hk : 512 * (t.val % 4) + r.val < 2048) (ho : 512 * (t.val / 4 % 4) + q.val < 2048) :
    (iblk m c 3 t : Vec F S512x512 .bf16) (ix2 r q)
      = V m c main_v35 (ix2 ⟨512 * (t.val % 4) + r.val, hk⟩ ⟨512 * (t.val / 4 % 4) + q.val, ho⟩) := by
  obtain ⟨-, -, e0, e1, -, -⟩ := idx_facts234 t
  unfold iblk
  rw [View.read_apply]
  show V m c main_v35 _ = V m c main_v35 _
  congr 1
  funext a
  apply Fin.ext
  match a with
  | ⟨0, _⟩ => show win0_3.index t (0 : Fin 2) * 512 + 1 * r.val = 512 * (t.val % 4) + r.val; rw [e0]; omega
  | ⟨1, _⟩ => show win0_3.index t (1 : Fin 2) * 512 + 1 * q.val = 512 * (t.val / 4 % 4) + q.val; rw [e1]; omega

/-- Window 4 holds rows 512 k … 512 k + 511 and columns 512 j … 512 j + 511 of its array. -/
theorem blk4_apply (c : Dev nD) (t : Fin cfg0.N) (r q : Fin 512)
    (hk : 512 * (t.val % 4) + r.val < 2048) (ho : 512 * (t.val / 4 % 4) + q.val < 2048) :
    (iblk m c 4 t : Vec F S512x512 .bf16) (ix2 r q)
      = V m c main_v36 (ix2 ⟨512 * (t.val % 4) + r.val, hk⟩ ⟨512 * (t.val / 4 % 4) + q.val, ho⟩) := by
  obtain ⟨-, -, -, -, e0, e1⟩ := idx_facts234 t
  unfold iblk
  rw [View.read_apply]
  show V m c main_v36 _ = V m c main_v36 _
  congr 1
  funext a
  apply Fin.ext
  match a with
  | ⟨0, _⟩ => show win0_4.index t (0 : Fin 2) * 512 + 1 * r.val = 512 * (t.val % 4) + r.val; rw [e0]; omega
  | ⟨1, _⟩ => show win0_4.index t (1 : Fin 2) * 512 + 1 * q.val = 512 * (t.val / 4 % 4) + q.val; rw [e1]; omega

/-- Window 5 holds the one row and columns 512 j … 512 j + 511 of its array. -/
theorem blk5_apply (c : Dev nD) (t : Fin cfg0.N) (z : Fin 1) (q : Fin 512)
    (ho : 512 * (t.val / 4 % 4) + q.val < 2048) :
    (iblk m c 5 t : Vec F S1x512 .f32) (ix2 z q)
      = V m c main_v38 (ix2 (0 : Fin 1) ⟨512 * (t.val / 4 % 4) + q.val, ho⟩) := by
  obtain ⟨e0, e1, -, -⟩ := idx_facts56 t
  have hz : z.val < 1 := z.isLt
  unfold iblk
  rw [View.read_apply]
  show V m c main_v38 _ = V m c main_v38 _
  congr 1
  funext a
  apply Fin.ext
  match a with
  | ⟨0, _⟩ => show win0_5.index t (0 : Fin 2) * 1 + 1 * z.val = 0; rw [e0]; omega
  | ⟨1, _⟩ => show win0_5.index t (1 : Fin 2) * 512 + 1 * q.val = 512 * (t.val / 4 % 4) + q.val; rw [e1]; omega

/-- Window 6 holds the one row and columns 512 j … 512 j + 511 of its array. -/
theorem blk6_apply (c : Dev nD) (t : Fin cfg0.N) (z : Fin 1) (q : Fin 512)
    (ho : 512 * (t.val / 4 % 4) + q.val < 2048) :
    (iblk m c 6 t : Vec F S1x512 .f32) (ix2 z q)
      = V m c main_v39 (ix2 (0 : Fin 1) ⟨512 * (t.val / 4 % 4) + q.val, ho⟩) := by
  obtain ⟨-, -, e0, e1⟩ := idx_facts56 t
  have hz : z.val < 1 := z.isLt
  unfold iblk
  rw [View.read_apply]
  show V m c main_v39 _ = V m c main_v39 _
  congr 1
  funext a
  apply Fin.ext
  match a with
  | ⟨0, _⟩ => show win0_6.index t (0 : Fin 2) * 1 + 1 * z.val = 0; rw [e0]; omega
  | ⟨1, _⟩ => show win0_6.index t (1 : Fin 2) * 512 + 1 * q.val = 512 * (t.val / 4 % 4) + q.val; rw [e1]; omega

/-! ## The output windows: reading a block, membership in a block, and the cover -/

/-- Reading point t's block of output window 7 off any contents G of its array: rows 1024 i …, columns 512 j …. -/
theorem out7_read (t : Fin cfg0.N) (p : Fin 1024) (q : Fin 512) (G : S4096x2048.Idx → Elt F .f32)
    (hb : 1024 * (t.val / 16) + p.val < 4096) (ho : 512 * (t.val / 4 % 4) + q.val < 2048) :
    (((cfg0.win 7).blk t).view.read (Elt F) G : Vec F S1024x512 .f32) (ix2 p q)
      = G (ix2 ⟨1024 * (t.val / 16) + p.val, hb⟩ ⟨512 * (t.val / 4 % 4) + q.val, ho⟩) := by
  obtain ⟨e0, e1, -, -⟩ := idx_facts78 t
  rw [View.read_apply]
  show G _ = G _
  congr 1
  funext a
  apply Fin.ext
  match a with
  | ⟨0, _⟩ => show win0_7.index t (0 : Fin 2) * 1024 + 1 * p.val = 1024 * (t.val / 16) + p.val; rw [e0]; omega
  | ⟨1, _⟩ => show win0_7.index t (1 : Fin 2) * 512 + 1 * q.val = 512 * (t.val / 4 % 4) + q.val; rw [e1]; omega

/-- An index of the array is in point t's block of window 7 iff each coordinate is in the block's range on its axis. -/
theorem mem_blk7 (t : Fin cfg0.N) (i : S4096x2048.Idx) :
    i ∈ ((cfg0.win 7).blk t).view.set ↔ ∀ a : Fin 2, win0_7.index t a * S1024x512.size a ≤ (i a).val ∧ (i a).val < win0_7.index t a * S1024x512.size a + S1024x512.size a := by
  show i ∈ ((View.whole main_v40_0).slice (win0_7.rect t)).set ↔ _
  rw [View.set_slice_whole, Rect.mem_set_unit]
  exact Iff.rfl

/-- Every entry (b, o) of window 7's array is in the block flushed at the point (b / 1024, o / 512, 3). -/
theorem cover7 : ∀ i : S4096x2048.Idx, ∃ t : Fin cfg0.N, (cfg0.win 7).flush t = true ∧ i ∈ ((cfg0.win 7).blk t).view.set := by
  intro i
  have hi0 : (i 0).val < 4096 := (i 0).isLt
  have hi1 : (i 1).val < 2048 := (i 1).isLt
  have hN : cfg0.N = 64 := N_0
  obtain ⟨t, ht⟩ : ∃ t : Fin cfg0.N, t.val = 16 * ((i 0).val / 1024) + 4 * ((i 1).val / 512) + 3 :=
    ⟨⟨16 * ((i 0).val / 1024) + 4 * ((i 1).val / 512) + 3, by omega⟩, rfl⟩
  refine ⟨t, ?_, ?_⟩
  · rw [flush0_7]; omega
  · rw [mem_blk7]
    obtain ⟨e0, e1, -, -⟩ := idx_facts78 t
    intro a
    match a with
    | ⟨0, _⟩ =>
      show win0_7.index t (0 : Fin 2) * 1024 ≤ (i 0).val ∧ (i 0).val < win0_7.index t (0 : Fin 2) * 1024 + 1024
      rw [e0]; omega
    | ⟨1, _⟩ =>
      show win0_7.index t (1 : Fin 2) * 512 ≤ (i 1).val ∧ (i 1).val < win0_7.index t (1 : Fin 2) * 512 + 512
      rw [e1]; omega

/-- Reading point t's block of output window 8 off any contents G of its array: rows 1024 i …, columns 512 j …. -/
theorem out8_read (t : Fin cfg0.N) (p : Fin 1024) (q : Fin 512) (G : S4096x2048.Idx → Elt F .f32)
    (hb : 1024 * (t.val / 16) + p.val < 4096) (ho : 512 * (t.val / 4 % 4) + q.val < 2048) :
    (((cfg0.win 8).blk t).view.read (Elt F) G : Vec F S1024x512 .f32) (ix2 p q)
      = G (ix2 ⟨1024 * (t.val / 16) + p.val, hb⟩ ⟨512 * (t.val / 4 % 4) + q.val, ho⟩) := by
  obtain ⟨-, -, e0, e1⟩ := idx_facts78 t
  rw [View.read_apply]
  show G _ = G _
  congr 1
  funext a
  apply Fin.ext
  match a with
  | ⟨0, _⟩ => show win0_8.index t (0 : Fin 2) * 1024 + 1 * p.val = 1024 * (t.val / 16) + p.val; rw [e0]; omega
  | ⟨1, _⟩ => show win0_8.index t (1 : Fin 2) * 512 + 1 * q.val = 512 * (t.val / 4 % 4) + q.val; rw [e1]; omega

/-- An index of the array is in point t's block of window 8 iff each coordinate is in the block's range on its axis. -/
theorem mem_blk8 (t : Fin cfg0.N) (i : S4096x2048.Idx) :
    i ∈ ((cfg0.win 8).blk t).view.set ↔ ∀ a : Fin 2, win0_8.index t a * S1024x512.size a ≤ (i a).val ∧ (i a).val < win0_8.index t a * S1024x512.size a + S1024x512.size a := by
  show i ∈ ((View.whole main_v40_1).slice (win0_8.rect t)).set ↔ _
  rw [View.set_slice_whole, Rect.mem_set_unit]
  exact Iff.rfl

/-- Every entry (b, o) of window 8's array is in the block flushed at the point (b / 1024, o / 512, 3). -/
theorem cover8 : ∀ i : S4096x2048.Idx, ∃ t : Fin cfg0.N, (cfg0.win 8).flush t = true ∧ i ∈ ((cfg0.win 8).blk t).view.set := by
  intro i
  have hi0 : (i 0).val < 4096 := (i 0).isLt
  have hi1 : (i 1).val < 2048 := (i 1).isLt
  have hN : cfg0.N = 64 := N_0
  obtain ⟨t, ht⟩ : ∃ t : Fin cfg0.N, t.val = 16 * ((i 0).val / 1024) + 4 * ((i 1).val / 512) + 3 :=
    ⟨⟨16 * ((i 0).val / 1024) + 4 * ((i 1).val / 512) + 3, by omega⟩, rfl⟩
  refine ⟨t, ?_, ?_⟩
  · rw [flush0_8]; omega
  · rw [mem_blk8]
    obtain ⟨-, -, e0, e1⟩ := idx_facts78 t
    intro a
    match a with
    | ⟨0, _⟩ =>
      show win0_8.index t (0 : Fin 2) * 1024 ≤ (i 0).val ∧ (i 0).val < win0_8.index t (0 : Fin 2) * 1024 + 1024
      rw [e0]; omega
    | ⟨1, _⟩ =>
      show win0_8.index t (1 : Fin 2) * 512 ≤ (i 1).val ∧ (i 1).val < win0_8.index t (1 : Fin 2) * 512 + 512
      rw [e1]; omega

end Cert.KernelIdeal.Blocks

end
-- ==== Proof.HostSide.lean ====
/-
  What the idealized kernel program's host operations leave, before its kernel region, in the arrays the region's
  windows stage — read index by index — and its two scalar results.

  Write `sp x = log1p (exp x) + c` for the softplus with its noise floor. With `wmu, wsg : [2048, 2048]`,
  `bmu : [2048, 1]` and `bsg : [2048]` the launched arguments, the region finds

    the mean weight           W (k, o) = wmu (k, o)                       (a change of float format: the identity here)
    the precombined weight    A (k, o) = sp (wsg (o, k)) + wmu (k, o) · wmu (k, o)
    the transposed softplus   C (k, o) = sp (wsg (o, k))
    the mean bias as a row    (0, o) ↦ bmu (o, 0)
    the variance bias row     (0, o) ↦ sp (bsg o)

  and the two losses are computed by the very operations the reference program's stages name, on the same arguments.
-/
import proofs.«132019_j3272765079980_1_alg».proof.Proof.Gen.KernelIdeal.Frame
import proofs.«132019_j3272765079980_1_alg».proof.Proof.Gen.ReferenceIdeal.Read
import proofs.«132019_j3272765079980_1_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostSide

open Cert.KernelIdeal Cert.KernelIdeal.Gen Idealize.ShloMosaic Idealize.ShloMosaic.TcCoe Idealize.ShloMosaic.ValueIdx Cert.Spec
open Idealize.ShloMosaic.StableHlo

variable (m : (ℓ : Loc nD τ sig) → Buf (Elt Ideal) ℓ)

/-! ## The argument arrays, as launched on core `c` -/

/-- The mean weight, `[2048, 2048]`. -/
abbrev arg2 (c : Dev nD) : Mat 2048 2048 := m ((c : Thread nD τ).loc main_arg2)
/-- The variance weight before its softplus, `[2048, 2048]`. -/
abbrev arg3 (c : Dev nD) : Mat 2048 2048 := m ((c : Thread nD τ).loc main_arg3)
/-- The mean bias, a column `[2048, 1]`. -/
abbrev arg4 (c : Dev nD) : Mat 2048 1 := m ((c : Thread nD τ).loc main_arg4)
/-- The variance bias before its softplus, `[2048]`. -/
abbrev arg5 (c : Dev nD) : Row 2048 := m ((c : Thread nD τ).loc main_arg5)

/-! ## Softplus with its noise floor, as the host operations spell it -/

/-- On a matrix: `log1p (exp x)` plus the broadcast literal, read at an index, is the softplus of the entry. -/
theorem softplusMat_apply (x : FVec Ideal S2048x2048 .f32) (i : S2048x2048.Idx) :
    addf (Host.log1p (Host.exp x))
        (broadcastInDim S2048x2048 ![] Facts₀.bcast_S_S2048x2048 (constant (F := Ideal) S_ .f32 0x358637BD#32)) i
      = softplus (x i) := by
  rw [addf_apply, broadcastInDim_apply _ Facts₀.bcast_S_S2048x2048 _ i ix0 (fun a => a.elim0)]
  rfl

/-- On a vector: the same. -/
theorem softplusVec_apply (x : FVec Ideal S2048 .f32) (i : S2048.Idx) :
    addf (Host.log1p (Host.exp x))
        (broadcastInDim S2048 ![] Facts₀.bcast_S_S2048 (constant (F := Ideal) S_ .f32 0x358637BD#32)) i
      = softplus (x i) := by
  rw [addf_apply, broadcastInDim_apply _ Facts₀.bcast_S_S2048 _ i ix0 (fun a => a.elim0)]
  rfl

/-- A column `[a, 1]` cast to a row `[1, a]` reads, at `(0, i)`, the column at `(i, 0)`: both sit at row-major position `i`. -/
theorem shapeCast_col_row_apply {α : Type} (x : S2048x1.Idx → α) (h : S2048x1.ShapeCasts S1x2048) (o : Fin 2048) :
    shapeCast S1x2048 x h (ix2 (0 : Fin 1) o) = x (ix2 o (0 : Fin 1)) :=
  shapeCast_apply x h _ _ (by
    rw [Shape.rowMajor_val_two, Shape.rowMajor_val_two]
    show o.val * 1 + 0 = 0 * 2048 + o.val
    omega)

/-! ## The arrays the windows stage, as the region finds them -/

/-- The mean weight converted to the narrow format: at exact arithmetic, the mean weight. -/
theorem wmu_apply (c : Dev nD) (k o : Fin 2048) :
    V m c main_v37 (ix2 k o) = arg2 m c (ix2 k o) := by
  have e : (V m c main_v37 : S2048x2048.Idx → EReal)
      = (truncf .bf16 (m ((c : Thread nD τ).loc main_arg2) : FVec Ideal S2048x2048 .f32) Facts₀.bitsLt_bf16_f32
          : FVec Ideal S2048x2048 .bf16) := by
    dsimp only [Gen.V, Gen.hostOps0]
    after_results
  rw [e]
  rfl

/-- The transposed softplus weight, at `(k, o)`: the softplus of the weight at `(o, k)`. -/
theorem C_apply (c : Dev nD) (k o : Fin 2048) :
    V m c main_v36 (ix2 k o) = softplus (arg3 m c (ix2 o k)) := by
  have e : (V m c main_v36 : S2048x2048.Idx → EReal)
      = (truncf .bf16
          (transpose S2048x2048 [1, 0]
            (addf (Host.log1p (Host.exp (m ((c : Thread nD τ).loc main_arg3) : FVec Ideal S2048x2048 .f32)))
              (broadcastInDim S2048x2048 ![] Facts₀.bcast_S_S2048x2048 (constant (F := Ideal) S_ .f32 0x358637BD#32)))
            Facts₀.transposes_S2048x2048_S2048x2048_1_0)
          Facts₀.bitsLt_bf16_f32 : FVec Ideal S2048x2048 .bf16) := by
    dsimp only [Gen.V, Gen.hostOps0]
    after_results
  rw [e, truncf_apply, transpose_ix2_apply, softplusMat_apply]

set_option maxHeartbeats 2000000 in
/-- The precombined weight, at `(k, o)`: the softplus of the weight at `(o, k)` plus the squared mean weight at `(k, o)`. -/
theorem A_apply (c : Dev nD) (k o : Fin 2048) :
    V m c main_v35 (ix2 k o)
      = softplus (arg3 m c (ix2 o k)) + arg2 m c (ix2 k o) * arg2 m c (ix2 k o) := by
  have e : (V m c main_v35 : S2048x2048.Idx → EReal)
      = (truncf .bf16
          (addf
            (transpose S2048x2048 [1, 0]
              (addf (Host.log1p (Host.exp (m ((c : Thread nD τ).loc main_arg3) : FVec Ideal S2048x2048 .f32)))
                (broadcastInDim S2048x2048 ![] Facts₀.bcast_S_S2048x2048 (constant (F := Ideal) S_ .f32 0x358637BD#32)))
              Facts₀.transposes_S2048x2048_S2048x2048_1_0)
            (mulf (m ((c : Thread nD τ).loc main_arg2) : FVec Ideal S2048x2048 .f32) (m ((c : Thread nD τ).loc main_arg2))))
          Facts₀.bitsLt_bf16_f32 : FVec Ideal S2048x2048 .bf16) := by
    dsimp only [Gen.V, Gen.hostOps0]
    after_results
  rw [e, truncf_apply, addf_apply, mulf_apply, transpose_ix2_apply, softplusMat_apply]

/-- The mean bias column laid out as a row. -/
theorem bmuRow_apply (c : Dev nD) (o : Fin 2048) :
    V m c main_v38 (ix2 (0 : Fin 1) o) = arg4 m c (ix2 o (0 : Fin 1)) := by
  have e : (V m c main_v38 : S1x2048.Idx → EReal)
      = shapeCast S1x2048 (m ((c : Thread nD τ).loc main_arg4) : S2048x1.Idx → EReal) Facts₀.shapeCasts_S2048x1_S1x2048 := by
    dsimp only [Gen.V, Gen.hostOps0]
    after_results
    rfl
  rw [e, shapeCast_col_row_apply]

/-- The softplus of the variance bias, laid out as a row. -/
theorem bsgRow_apply (c : Dev nD) (o : Fin 2048) :
    V m c main_v39 (ix2 (0 : Fin 1) o) = softplus (arg5 m c (ix1 o)) := by
  have e : (V m c main_v39 : S1x2048.Idx → EReal)
      = shapeCast S1x2048
          (addf (Host.log1p (Host.exp (m ((c : Thread nD τ).loc main_arg5) : FVec Ideal S2048 .f32)))
            (broadcastInDim S2048 ![] Facts₀.bcast_S_S2048 (constant (F := Ideal) S_ .f32 0x358637BD#32)))
          Facts₀.shapeCasts_S2048_S1x2048 := by
    dsimp only [Gen.V, Gen.hostOps0]
    after_results
    rfl
  rw [e, shapeCast_a_1a_apply, softplusVec_apply]

/-! ## The two scalar results -/

set_option maxHeartbeats 4000000 in
/-- The weight loss: the host operations that compute it are, one for one, those the reference's stage names. -/
theorem wkl_eq (c : Dev nD) :
    V m c main_v20 = Cert.ReferenceIdeal.Read.val_main_v35 (F := Ideal) (arg2 m c) (arg3 m c) := by
  have e : (V m c main_v20 : S_.Idx → EReal) = Cert.ReferenceIdeal.Read.val_main_v35 (F := Ideal) (arg2 m c) (arg3 m c) := by
    show StableHlo.after (Gen.hostOps0 (F := Ideal)) (fun b => m (c, b)) (Proc.devRef .tc main_v20) = _
    after_results
    rfl
  exact e

set_option maxHeartbeats 4000000 in
/-- The bias loss, likewise. -/
theorem bkl_eq (c : Dev nD) :
    V m c main_v31 = Cert.ReferenceIdeal.Read.val_main_v46 (F := Ideal) (arg4 m c) (arg5 m c) := by
  have e : (V m c main_v31 : S_.Idx → EReal) = Cert.ReferenceIdeal.Read.val_main_v46 (F := Ideal) (arg4 m c) (arg5 m c) := by
    show StableHlo.after (Gen.hostOps0 (F := Ideal)) (fun b => m (c, b)) (Proc.devRef .tc main_v31) = _
    after_results
    rfl
  exact e

end Cert.KernelIdeal.HostSide

end
-- ==== Proof.Final.lean ====
/-
  What the kernel program's four results hold after its run, as functions of its arguments.

  Output block `(i, j)` is written back once, at the last point `t = 16·i + 4·j + 3` of its run, and holds there the
  accumulator plus the bias row. Entry `(p, q)` of that block is entry `(1024·i + p, 512·j + q)` of the array, the
  run's point `4·(t/4) + s` stages chunk `s` of the feature axis, and the blocks are restrictions of the staged
  arrays, so the written block is the block of `Spec.meanK` / `Spec.varK` of the staged arrays. The flushed blocks
  cover both output arrays. The staged weight arrays are what the host operations before the call computed from
  the arguments (the mean weight itself; the transposed softplus weight with and without the squared mean weight;
  the two bias rows), which turns `meanK`, `varK` into the reference's `meanOut`, `varOut` of the arguments.
  The two scalar results are host buffers the call leaves as it found them.
-/
import proofs.«132019_j3272765079980_1_alg».proof.Proof.Gen.KernelIdeal.Value
import proofs.«132019_j3272765079980_1_alg».proof.Proof.Fold
import proofs.«132019_j3272765079980_1_alg».proof.Proof.Blocks
import proofs.«132019_j3272765079980_1_alg».proof.Proof.HostSide
import proofs.«132019_j3272765079980_1_alg».proof.Proof.Spec

noncomputable section

namespace Cert.KernelIdeal.Final

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-! ## The staged arrays, at their literal types -/

abbrev muA (c : Dev nD) : Spec.Mat 4096 2048 := V m c main_arg0
abbrev sgA (c : Dev nD) : Spec.Mat 4096 2048 := V m c main_arg1
abbrev wA (c : Dev nD) : Spec.Mat 2048 2048 := V m c main_v37
abbrev aA (c : Dev nD) : Spec.Mat 2048 2048 := V m c main_v35
abbrev cA (c : Dev nD) : Spec.Mat 2048 2048 := V m c main_v36
abbrev bmuR (c : Dev nD) : Spec.Mat 1 2048 := V m c main_v38
abbrev bsgR (c : Dev nD) : Spec.Mat 1 2048 := V m c main_v39

/-- The mean result as the kernel arranges it, over the staged arrays. -/
abbrev meanG (c : Dev nD) : Spec.Mat 4096 2048 := Spec.meanK (muA m c) (wA m c) (bmuR m c)
/-- The variance result as the kernel arranges it, over the staged arrays. -/
abbrev varG (c : Dev nD) : Spec.Mat 4096 2048 := Spec.varK (muA m c) (sgA m c) (aA m c) (cA m c) (bsgR m c)

/-! ## The blocks of a run's points are the chunks of the staged arrays -/

/-- Point `4·(t/4) + s` of the run of `t` lies on the grid. -/
theorem run_lt (t : Fin cfg0.N) (s : Fin 4) : 4 * (t.val / 4) + s.val < cfg0.N := by
  have ht : t.val < 64 := (N_0 : grid0.N = 64) ▸ t.isLt
  have hs : s.val < 4 := s.isLt
  exact lt_of_lt_of_eq (show 4 * (t.val / 4) + s.val < 64 by omega) (N_0 : grid0.N = 64).symm

theorem muB_chunk (c : Dev nD) (t : Fin cfg0.N) (s : Fin 4) (hn : 4 * (t.val / 4) + s.val < cfg0.N) (p : Fin 1024) (r : Fin 512)
    (hb : 1024 * (t.val / 16) + p.val < 4096) :
    Fold.muB m c ⟨4 * (t.val / 4) + s.val, hn⟩ (ix2 p r) = muA m c (ix2 ⟨1024 * (t.val / 16) + p.val, hb⟩ (Spec.chunk s r)) := by
  have ht : t.val < 64 := (N_0 : grid0.N = 64) ▸ t.isLt
  have hs : s.val < 4 := s.isLt
  have hp : p.val < 1024 := p.isLt
  have hr : r.val < 512 := r.isLt
  exact (Blocks.blk0_apply m c ⟨4 * (t.val / 4) + s.val, hn⟩ p r (by dsimp only; omega) (by dsimp only; omega)).trans
    (congrArg (muA m c) (congrArg₂ ix2 (Fin.ext (by dsimp only; omega))
      (Fin.ext (by show 512 * ((4 * (t.val / 4) + s.val) % 4) + r.val = 512 * s.val + r.val; omega))))

theorem sgB_chunk (c : Dev nD) (t : Fin cfg0.N) (s : Fin 4) (hn : 4 * (t.val / 4) + s.val < cfg0.N) (p : Fin 1024) (r : Fin 512)
    (hb : 1024 * (t.val / 16) + p.val < 4096) :
    Fold.sgB m c ⟨4 * (t.val / 4) + s.val, hn⟩ (ix2 p r) = sgA m c (ix2 ⟨1024 * (t.val / 16) + p.val, hb⟩ (Spec.chunk s r)) := by
  have ht : t.val < 64 := (N_0 : grid0.N = 64) ▸ t.isLt
  have hs : s.val < 4 := s.isLt
  have hp : p.val < 1024 := p.isLt
  have hr : r.val < 512 := r.isLt
  exact (Blocks.blk1_apply m c ⟨4 * (t.val / 4) + s.val, hn⟩ p r (by dsimp only; omega) (by dsimp only; omega)).trans
    (congrArg (sgA m c) (congrArg₂ ix2 (Fin.ext (by dsimp only; omega))
      (Fin.ext (by show 512 * ((4 * (t.val / 4) + s.val) % 4) + r.val = 512 * s.val + r.val; omega))))

theorem wB_chunk (c : Dev nD) (t : Fin cfg0.N) (s : Fin 4) (hn : 4 * (t.val / 4) + s.val < cfg0.N) (r q : Fin 512)
    (ho : 512 * (t.val / 4 % 4) + q.val < 2048) :
    Fold.wB m c ⟨4 * (t.val / 4) + s.val, hn⟩ (ix2 r q) = wA m c (ix2 (Spec.chunk s r) ⟨512 * (t.val / 4 % 4) + q.val, ho⟩) := by
  have ht : t.val < 64 := (N_0 : grid0.N = 64) ▸ t.isLt
  have hs : s.val < 4 := s.isLt
  have hq : q.val < 512 := q.isLt
  have hr : r.val < 512 := r.isLt
  exact (Blocks.blk2_apply m c ⟨4 * (t.val / 4) + s.val, hn⟩ r q (by dsimp only; omega) (by dsimp only; omega)).trans
    (congrArg (wA m c) (congrArg₂ ix2
      (Fin.ext (by show 512 * ((4 * (t.val / 4) + s.val) % 4) + r.val = 512 * s.val + r.val; omega))
      (Fin.ext (by dsimp only; omega))))

theorem aB_chunk (c : Dev nD) (t : Fin cfg0.N) (s : Fin 4) (hn : 4 * (t.val / 4) + s.val < cfg0.N) (r q : Fin 512)
    (ho : 512 * (t.val / 4 % 4) + q.val < 2048) :
    Fold.aB m c ⟨4 * (t.val / 4) + s.val, hn⟩ (ix2 r q) = aA m c (ix2 (Spec.chunk s r) ⟨512 * (t.val / 4 % 4) + q.val, ho⟩) := by
  have ht : t.val < 64 := (N_0 : grid0.N = 64) ▸ t.isLt
  have hs : s.val < 4 := s.isLt
  have hq : q.val < 512 := q.isLt
  have hr : r.val < 512 := r.isLt
  exact (Blocks.blk3_apply m c ⟨4 * (t.val / 4) + s.val, hn⟩ r q (by dsimp only; omega) (by dsimp only; omega)).trans
    (congrArg (aA m c) (congrArg₂ ix2
      (Fin.ext (by show 512 * ((4 * (t.val / 4) + s.val) % 4) + r.val = 512 * s.val + r.val; omega))
      (Fin.ext (by dsimp only; omega))))

theorem cB_chunk (c : Dev nD) (t : Fin cfg0.N) (s : Fin 4) (hn : 4 * (t.val / 4) + s.val < cfg0.N) (r q : Fin 512)
    (ho : 512 * (t.val / 4 % 4) + q.val < 2048) :
    Fold.cB m c ⟨4 * (t.val / 4) + s.val, hn⟩ (ix2 r q) = cA m c (ix2 (Spec.chunk s r) ⟨512 * (t.val / 4 % 4) + q.val, ho⟩) := by
  have ht : t.val < 64 := (N_0 : grid0.N = 64) ▸ t.isLt
  have hs : s.val < 4 := s.isLt
  have hq : q.val < 512 := q.isLt
  have hr : r.val < 512 := r.isLt
  exact (Blocks.blk4_apply m c ⟨4 * (t.val / 4) + s.val, hn⟩ r q (by dsimp only; omega) (by dsimp only; omega)).trans
    (congrArg (cA m c) (congrArg₂ ix2
      (Fin.ext (by show 512 * ((4 * (t.val / 4) + s.val) % 4) + r.val = 512 * s.val + r.val; omega))
      (Fin.ext (by dsimp only; omega))))

/-- The bias rows' blocks follow the output column block. -/
theorem bmuB_row (c : Dev nD) (t : Fin cfg0.N) (q : Fin 512) (ho : 512 * (t.val / 4 % 4) + q.val < 2048) :
    Fold.bmuB m c t (ix2 (0 : Fin 1) q) = bmuR m c (ix2 (0 : Fin 1) ⟨512 * (t.val / 4 % 4) + q.val, ho⟩) :=
  Blocks.blk5_apply m c t (0 : Fin 1) q ho

theorem bsgB_row (c : Dev nD) (t : Fin cfg0.N) (q : Fin 512) (ho : 512 * (t.val / 4 % 4) + q.val < 2048) :
    Fold.bsgB m c t (ix2 (0 : Fin 1) q) = bsgR m c (ix2 (0 : Fin 1) ⟨512 * (t.val / 4 % 4) + q.val, ho⟩) :=
  Blocks.blk6_apply m c t (0 : Fin 1) q ho

/-! ## One entry of a written block -/

/-- Chunk `s` of the run of `t` is staged at point `4·(t/4) + s`: that point's mean addend is the chunk's partial product. -/
theorem meanAdd_eq (c : Dev nD) (t : Fin cfg0.N) (s : Fin 4) (p : Fin 1024) (q : Fin 512)
    (hb : 1024 * (t.val / 16) + p.val < 4096) (ho : 512 * (t.val / 4 % 4) + q.val < 2048) :
    Fold.meanAddAt m c (4 * (t.val / 4) + s.val) p q
      = Spec.part (muA m c) (wA m c) ⟨1024 * (t.val / 16) + p.val, hb⟩ ⟨512 * (t.val / 4 % 4) + q.val, ho⟩ s := by
  have hn := run_lt t s
  unfold Fold.meanAddAt Spec.part
  rw [dif_pos hn]
  refine Finset.sum_congr rfl fun r _ => ?_
  rw [muB_chunk m c t s hn p r hb, wB_chunk m c t s hn r q ho]

/-- The same for the variance's two partial products. -/
theorem varAdd_eq (c : Dev nD) (t : Fin cfg0.N) (s : Fin 4) (p : Fin 1024) (q : Fin 512)
    (hb : 1024 * (t.val / 16) + p.val < 4096) (ho : 512 * (t.val / 4 % 4) + q.val < 2048) :
    Fold.varAddAt m c (4 * (t.val / 4) + s.val) p q
      = Spec.part (sgA m c) (aA m c) ⟨1024 * (t.val / 16) + p.val, hb⟩ ⟨512 * (t.val / 4 % 4) + q.val, ho⟩ s
        + Spec.part (fun i => muA m c i * muA m c i) (cA m c) ⟨1024 * (t.val / 16) + p.val, hb⟩ ⟨512 * (t.val / 4 % 4) + q.val, ho⟩ s := by
  have hn := run_lt t s
  unfold Fold.varAddAt Spec.part
  rw [dif_pos hn]
  refine congrArg₂ (fun a b : EReal => a + b) (Finset.sum_congr rfl fun r _ => ?_) (Finset.sum_congr rfl fun r _ => ?_)
  · rw [sgB_chunk m c t s hn p r hb, aB_chunk m c t s hn r q ho]
  · rw [muB_chunk m c t s hn p r hb, cB_chunk m c t s hn r q ho]

/-- Entry `(p, q)` of the mean block written back at the last point `t` of a run is entry
    `(1024·(t/16) + p, 512·(t/4 % 4) + q)` of the kernel-arranged mean. -/
theorem meanEntry (c : Dev nD) (t : Fin cfg0.N) (h3 : t.val % 4 = 3) (p : Fin 1024) (q : Fin 512)
    (hb : 1024 * (t.val / 16) + p.val < 4096) (ho : 512 * (t.val / 4 % 4) + q.val < 2048) :
    k0_pay1 ((outsAt0 m c t.val t.isLt).2.2.1) (Fold.bmuB m c t) (ix2 p q)
      = Spec.meanKAt (muA m c) (wA m c) (bmuR m c) ⟨1024 * (t.val / 16) + p.val, hb⟩ ⟨512 * (t.val / 4 % 4) + q.val, ho⟩ := by
  rw [Payloads.meanOut_apply, Fold.meanAcc_fold, h3, Finset.sum_range, bmuB_row m c t q ho]
  unfold Spec.meanKAt
  congr 2
  exact Finset.sum_congr rfl fun s _ => meanAdd_eq m c t s p q hb ho

theorem varEntry (c : Dev nD) (t : Fin cfg0.N) (h3 : t.val % 4 = 3) (p : Fin 1024) (q : Fin 512)
    (hb : 1024 * (t.val / 16) + p.val < 4096) (ho : 512 * (t.val / 4 % 4) + q.val < 2048) :
    k0_pay2 ((outsAt0 m c t.val t.isLt).2.2.2) (Fold.bsgB m c t) (ix2 p q)
      = Spec.varKAt (muA m c) (sgA m c) (aA m c) (cA m c) (bsgR m c) ⟨1024 * (t.val / 16) + p.val, hb⟩ ⟨512 * (t.val / 4 % 4) + q.val, ho⟩ := by
  rw [Payloads.varOut_apply, Fold.varAcc_fold, h3, Finset.sum_range, bsgB_row m c t q ho]
  unfold Spec.varKAt
  congr 2
  exact Finset.sum_congr rfl fun s _ => varAdd_eq m c t s p q hb ho

/-! ## The written blocks, and the arrays after the run -/

/-- What a flushing point writes back to the mean array is its block of the kernel-arranged mean. -/
theorem flushedMean (c : Dev nD) (t : Fin cfg0.N) (hf : (cfg0.win 7).flush t = true) :
    (dats m 0 c).flushed 7 t = ((cfg0.win 7).blk t).view.read (Elt Ideal) (meanG m c) := by
  have h3 : t.val % 4 = 3 := (flush0_7 t).mp hf
  have hN : cfg0.N = 64 := N_0
  have ht : t.val < 64 := (N_0 : grid0.N = 64) ▸ t.isLt
  rw [Value.flushed7, Fold.meanOut_last m c t h3]
  show (k0_pay1 ((outsAt0 m c t.val t.isLt).2.2.1) (Fold.bmuB m c t) : Vec Ideal S1024x512 .f32)
    = (((cfg0.win 7).blk t).view.read (Elt Ideal) (meanG m c) : Vec Ideal S1024x512 .f32)
  funext j
  obtain ⟨p, q, rfl⟩ : ∃ (p : Fin 1024) (q : Fin 512), j = ix2 p q := ⟨j 0, j 1, eq_ix2 j⟩
  have hp : p.val < 1024 := p.isLt
  have hq : q.val < 512 := q.isLt
  have hb : 1024 * (t.val / 16) + p.val < 4096 := by omega
  have ho : 512 * (t.val / 4 % 4) + q.val < 2048 := by omega
  exact (meanEntry m c t h3 p q hb ho).trans (Blocks.out7_read (F := Ideal) t p q (meanG m c) hb ho).symm

theorem flushedVar (c : Dev nD) (t : Fin cfg0.N) (hf : (cfg0.win 8).flush t = true) :
    (dats m 0 c).flushed 8 t = ((cfg0.win 8).blk t).view.read (Elt Ideal) (varG m c) := by
  have h3 : t.val % 4 = 3 := (flush0_8 t).mp hf
  have hN : cfg0.N = 64 := N_0
  have ht : t.val < 64 := (N_0 : grid0.N = 64) ▸ t.isLt
  rw [Value.flushed8, Fold.varOut_last m c t h3]
  show (k0_pay2 ((outsAt0 m c t.val t.isLt).2.2.2) (Fold.bsgB m c t) : Vec Ideal S1024x512 .f32)
    = (((cfg0.win 8).blk t).view.read (Elt Ideal) (varG m c) : Vec Ideal S1024x512 .f32)
  funext j
  obtain ⟨p, q, rfl⟩ : ∃ (p : Fin 1024) (q : Fin 512), j = ix2 p q := ⟨j 0, j 1, eq_ix2 j⟩
  have hp : p.val < 1024 := p.isLt
  have hq : q.val < 512 := q.isLt
  have hb : 1024 * (t.val / 16) + p.val < 4096 := by omega
  have ho : 512 * (t.val / 4 % 4) + q.val < 2048 := by omega
  exact (varEntry m c t h3 p q hb ho).trans (Blocks.out8_read (F := Ideal) t p q (varG m c) hb ho).symm

/-- The mean array after the run. -/
theorem finalMean (c : Dev nD) : (dats m 0 c).arrAt 7 cfg0.N = meanG m c :=
  (dats m 0 c).arrAt_eq_of_cover 7 (meanG m c) (flushedMean m c) Blocks.cover7

/-- The variance array after the run. -/
theorem finalVar (c : Dev nD) : (dats m 0 c).arrAt 8 cfg0.N = varG m c :=
  (dats m 0 c).arrAt_eq_of_cover 8 (varG m c) (flushedVar m c) Blocks.cover8

/-! ## From the staged arrays to the arguments -/

/-- The kernel-arranged mean is the reference's mean of the arguments. -/
theorem meanG_eq (c : Dev nD) :
    meanG m c = Spec.meanOut (m ((c : Thread nD τ).loc main_arg0)) (m ((c : Thread nD τ).loc main_arg2)) (m ((c : Thread nD τ).loc main_arg4)) := by
  have e0 : muA m c = m ((c : Thread nD τ).loc main_arg0) := V_main_arg0 m c
  have e2 : wA m c = m ((c : Thread nD τ).loc main_arg2) := by
    funext j
    obtain ⟨k, o, rfl⟩ : ∃ (k o : Fin 2048), j = ix2 k o := ⟨j 0, j 1, eq_ix2 j⟩
    exact HostSide.wmu_apply m c k o
  unfold meanG
  rw [e0, e2]
  exact Spec.meanK_eq _ _ _ _ fun o => HostSide.bmuRow_apply m c o

/-- The kernel-arranged variance is the reference's variance of the arguments. -/
theorem varG_eq (c : Dev nD) :
    varG m c = Spec.varOut (m ((c : Thread nD τ).loc main_arg0)) (m ((c : Thread nD τ).loc main_arg1)) (m ((c : Thread nD τ).loc main_arg2))
      (m ((c : Thread nD τ).loc main_arg3)) (m ((c : Thread nD τ).loc main_arg5)) := by
  have e0 : muA m c = m ((c : Thread nD τ).loc main_arg0) := V_main_arg0 m c
  have e1 : sgA m c = m ((c : Thread nD τ).loc main_arg1) := V_main_arg1 m c
  unfold varG
  rw [e0, e1]
  exact Spec.varK_eq _ _ _ _ _ _ _ _ (fun k o => HostSide.A_apply m c k o) (fun k o => HostSide.C_apply m c k o)
    (fun o => HostSide.bsgRow_apply m c o)

/-! ## The run, read -/

/-- Every weakly fair execution of the idealized kernel program terminates with its four results at these functions of
    its arguments, and the arguments unchanged. -/
theorem run : θ_run defs (onTc (τ := τ) (main (F := Ideal))) ⟨m, fun _ => 0, ρ⟩ fun r => ∀ c : Dev nD,
      r.2.mem ((c : Thread nD τ).loc main_v40_0) = Spec.meanOut (m ((c : Thread nD τ).loc main_arg0)) (m ((c : Thread nD τ).loc main_arg2)) (m ((c : Thread nD τ).loc main_arg4))
      ∧ r.2.mem ((c : Thread nD τ).loc main_v40_1) = Spec.varOut (m ((c : Thread nD τ).loc main_arg0)) (m ((c : Thread nD τ).loc main_arg1)) (m ((c : Thread nD τ).loc main_arg2)) (m ((c : Thread nD τ).loc main_arg3)) (m ((c : Thread nD τ).loc main_arg5))
      ∧ r.2.mem ((c : Thread nD τ).loc main_v20) = Cert.ReferenceIdeal.Read.val_main_v35 (F := Ideal) (m ((c : Thread nD τ).loc main_arg2)) (m ((c : Thread nD τ).loc main_arg3))
      ∧ r.2.mem ((c : Thread nD τ).loc main_v31) = Cert.ReferenceIdeal.Read.val_main_v46 (F := Ideal) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(Value.post7 m r h c).trans ((finalMean m c).trans (meanG_eq m c)),
      (Value.post8 m r h c).trans ((finalVar m c).trans (varG_eq m c)),
      ((h c).2 main_v20 (Pipeline.mem_restRefs_of main_v20 (by decide) (by decide))).trans (HostSide.wkl_eq m c),
      ((h c).2 main_v31 (Pipeline.mem_restRefs_of main_v31 (by decide) (by decide))).trans (HostSide.bkl_eq m c),
      Value.kept_main_arg0 m r h c,
      Value.kept_main_arg1 m r h c,
      Value.kept_main_arg2 m r h c,
      Value.kept_main_arg3 m r h c,
      Value.kept_main_arg4 m r h c,
      Value.kept_main_arg5 m r h c⟩)
    (run_main m ρ)

end Cert.KernelIdeal.Final

end
-- ==== Proof.lean ====
/-
  The certificate: a fused Bayesian dense layer against its jnp reference, equal over the extended reals.

  Inputs `mu, sg : f32[4096,2048]`, `wmu, wsg : f32[2048,2048]`, `bmu : f32[2048,1]`, `bsg : f32[2048]`. With
  `sp x = log (1 + exp x) + c` (softplus with the noise floor `c`), both programs return

    mean (b,o) = (Σ_k mu (b,k) · wmu (k,o)) + bmu (o,0)
    var  (b,o) = Σ_k sg (b,k) · sp (wsg (o,k)) + Σ_k sg (b,k) · wmu (k,o)² + Σ_k mu (b,k)² · sp (wsg (o,k)) + sp (bsg o)

  and two scalar losses that both compute by the same host operations. The kernel contracts the 2048 features in four
  chunks of 512 accumulated from zero over a grid axis, and folds the first two contractions of the variance into one
  by staging `sp (wsg)ᵀ + wmu²`. Over the extended reals a sum may be regrouped freely, and a product distributes over
  a sum of two NONNEGATIVE terms whatever the multiplier; a softplus and a square are nonnegative on every extended
  real, so the two arrangements agree on every input and the finiteness precondition is never opened.

  The three frames are the generated ones (the reference's is its generated run with the results dropped); the
  idealization rewrote nothing, so `preserves` is `True`. The kernel's results are read in Final.lean (over
  Pieces, Payloads, Fold, Blocks, HostSide), the reference's in RefValue.lean, both against Spec.lean.
-/
import proofs.«132019_j3272765079980_1_alg».proof.Defs
import proofs.«132019_j3272765079980_1_alg».proof.Proof.Gen.Kernel
import proofs.«132019_j3272765079980_1_alg».proof.Proof.Gen.Kernel.Skeleton
import proofs.«132019_j3272765079980_1_alg».proof.Proof.Gen.Kernel.Launch
import proofs.«132019_j3272765079980_1_alg».proof.Proof.Gen.Kernel.Points
import proofs.«132019_j3272765079980_1_alg».proof.Proof.Gen.Kernel.Frame
import proofs.«132019_j3272765079980_1_alg».proof.Proof.Gen.KernelIdeal
import proofs.«132019_j3272765079980_1_alg».proof.Proof.Gen.KernelIdeal.Skeleton
import proofs.«132019_j3272765079980_1_alg».proof.Proof.Gen.KernelIdeal.Launch
import proofs.«132019_j3272765079980_1_alg».proof.Proof.Gen.KernelIdeal.Points
import proofs.«132019_j3272765079980_1_alg».proof.Proof.Gen.KernelIdeal.Frame
import proofs.«132019_j3272765079980_1_alg».proof.Proof.Gen.ReferenceIdeal
import proofs.«132019_j3272765079980_1_alg».proof.Proof.Gen.Pre_finite_inputs
import proofs.«132019_j3272765079980_1_alg».proof.Proof.Gen.KernelIdeal.Value
import proofs.«132019_j3272765079980_1_alg».proof.Proof.Gen.ReferenceIdeal.Run
import proofs.«132019_j3272765079980_1_alg».proof.Proof.Gen.ReferenceIdeal.Read
import proofs.«132019_j3272765079980_1_alg».proof.Proof.RefValue
import proofs.«132019_j3272765079980_1_alg».proof.Proof.Final
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run, with the four results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2)
    (Cert.ReferenceIdeal.Value.run (F := Ideal) m ρ)

/-- Both programs end with the mean at `Spec.meanOut`, the variance at `Spec.varOut` and the two losses at the
    reference's own terms, of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, _, _, Cert.KernelIdeal.Final.run m ρ, ?_⟩
  refine (θ_run Cert.ReferenceIdeal.defs _ _).mono (fun r h c => ?_) (Cert.ReferenceIdeal.Value.run (F := Ideal) m' ρ')
  obtain ⟨a0, a1, a2, a3, a4, a5⟩ := hagree c
  obtain ⟨h4, h22, h35, h46, hargs⟩ := h c
  refine ⟨?_, ?_, ?_, ?_, hargs⟩
  · rw [h4, Cert.ReferenceIdeal.Read.val_main_v4_eq, Cert.ReferenceIdeal.RefValue.mean_eq, a0, a2, a4]
  · rw [h22, Cert.ReferenceIdeal.Read.val_main_v22_eq, Cert.ReferenceIdeal.RefValue.var_eq, a0, a1, a2, a3, a5]
  · rw [h35, Cert.ReferenceIdeal.Read.val_main_v35_eq, a2, a3]
  · rw [h46, Cert.ReferenceIdeal.Read.val_main_v46_eq, a4, a5]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
